-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64 : Shape := ⟨3, ![16, 64, 64]⟩
abbrev S16x64x3 : Shape := ⟨3, ![16, 64, 3]⟩
abbrev S_ : Shape := ⟨0, ![]⟩
abbrev S16x64x64x1 : Shape := ⟨4, ![16, 64, 64, 1]⟩
abbrev S16x64x1x64 : Shape := ⟨4, ![16, 64, 1, 64]⟩
abbrev S16x64x64x64 : Shape := ⟨4, ![16, 64, 64, 64]⟩

class Facts : Prop where
  bcast_S_S16x64x64 : S_.BroadcastsInDim S16x64x64 (![] : Fin 0 → Fin S16x64x64.rank)
  reducesTo_S16x64x64_S_d0_1_2 : S16x64x64.ReducesTo [0, 1, 2] S_
  h_S_ : 0 < S_.numel
  bcast_S_S16x64x3 : S_.BroadcastsInDim S16x64x3 (![] : Fin 0 → Fin S16x64x3.rank)
  reducesTo_S16x64x3_S_d0_1_2 : S16x64x3.ReducesTo [0, 1, 2] S_
  bcast_S16x64x64_S16x64x64x1_0_1_2 : S16x64x64.BroadcastsInDim S16x64x64x1 (![0, 1, 2] : Fin 3 → Fin S16x64x64x1.rank)
  bcast_S16x64x64_S16x64x1x64_0_1_3 : S16x64x64.BroadcastsInDim S16x64x1x64 (![0, 1, 3] : Fin 3 → Fin S16x64x1x64.rank)
  bcast_S16x64x64x1_S16x64x64x64_0_1_2_3 : S16x64x64x1.BroadcastsInDim S16x64x64x64 (![0, 1, 2, 3] : Fin 4 → Fin S16x64x64x64.rank)
  bcast_S16x64x1x64_S16x64x64x64_0_1_2_3 : S16x64x1x64.BroadcastsInDim S16x64x64x64 (![0, 1, 2, 3] : Fin 4 → Fin S16x64x64x64.rank)
  bcast_S_S16x64x64x64 : S_.BroadcastsInDim S16x64x64x64 (![] : Fin 0 → Fin S16x64x64x64.rank)
  reducesTo_S16x64x64x64_S_d0_1_2_3 : S16x64x64x64.ReducesTo [0, 1, 2, 3] S_

variable [Facts]

def fn_part1 {F : FTy → Type} [FloatOps F] (main_v13 : IVec S_ 1) (main_v16 : FVec F S16x64x64x64 .f32) (main_v17 : FVec F S16x64x64x64 .f32) : IVec S_ 1 :=
  let main_v18 : FVec F S16x64x64x64 .f32 := mulf main_v16 main_v17
  let main_cst_4 : FVec F S_ .f32 := constant S_ .f32 0x3727C5AC#32
  let main_v19 : FVec F S16x64x64x64 .f32 := broadcastInDim S16x64x64x64 ![] bcast_S_S16x64x64x64 main_cst_4
  let main_v20 : FVec F S16x64x64x64 .f32 := addf main_v18 main_v19
  let main_cst_5 : FVec F S_ .f32 := constant S_ .f32 0x00000000#32
  let main_v21 : FVec F S16x64x64x64 .f32 := broadcastInDim S16x64x64x64 ![] bcast_S_S16x64x64x64 main_cst_5
  let main_v22 : IVec S16x64x64x64 1 := cmpf .une main_v20 main_v21
  let main_c_6 : IVec S_ 1 := constantI S_ 1 1#1
  let main_v23 : IVec S_ 1 := (fun x v => Host.reduce IntOp.andi x v reducesTo_S16x64x64x64_S_d0_1_2_3 h_S_) main_v22 main_c_6
  let main_v24 : IVec S_ 1 := andi main_v13 main_v23
  main_v24

def fn {F : FTy → Type} [FloatOps F] (main_arg0 : FVec F S16x64x64 .f32) (main_arg1 : FVec F S16x64x64 .f32) (main_arg2 : FVec F S16x64x3 .f32) : IVec S_ 1 :=
  let main_v0 : FVec F S16x64x64 .f32 := Host.absf main_arg0
  let main_cst : FVec F S_ .f32 := constant S_ .f32 0x7F800000#32
  let main_v1 : FVec F S16x64x64 .f32 := broadcastInDim S16x64x64 ![] bcast_S_S16x64x64 main_cst
  let main_v2 : IVec S16x64x64 1 := cmpf .olt main_v0 main_v1
  let main_c : IVec S_ 1 := constantI S_ 1 1#1
  let main_v3 : IVec S_ 1 := (fun x v => Host.reduce IntOp.andi x v reducesTo_S16x64x64_S_d0_1_2 h_S_) main_v2 main_c
  let main_v4 : FVec F S16x64x64 .f32 := Host.absf main_arg1
  let main_cst_0 : FVec F S_ .f32 := constant S_ .f32 0x7F800000#32
  let main_v5 : FVec F S16x64x64 .f32 := broadcastInDim S16x64x64 ![] bcast_S_S16x64x64 main_cst_0
  let main_v6 : IVec S16x64x64 1 := cmpf .olt main_v4 main_v5
  let main_c_1 : IVec S_ 1 := constantI S_ 1 1#1
  let main_v7 : IVec S_ 1 := (fun x v => Host.reduce IntOp.andi x v reducesTo_S16x64x64_S_d0_1_2 h_S_) main_v6 main_c_1
  let main_v8 : IVec S_ 1 := andi main_v3 main_v7
  let main_v9 : FVec F S16x64x3 .f32 := Host.absf main_arg2
  let main_cst_2 : FVec F S_ .f32 := constant S_ .f32 0x7F800000#32
  let main_v10 : FVec F S16x64x3 .f32 := broadcastInDim S16x64x3 ![] bcast_S_S16x64x3 main_cst_2
  let main_v11 : IVec S16x64x3 1 := cmpf .olt main_v9 main_v10
  let main_c_3 : IVec S_ 1 := constantI S_ 1 1#1
  let main_v12 : IVec S_ 1 := (fun x v => Host.reduce IntOp.andi x v reducesTo_S16x64x3_S_d0_1_2 h_S_) main_v11 main_c_3
  let main_v13 : IVec S_ 1 := andi main_v8 main_v12
  let main_v14 : FVec F S16x64x64x1 .f32 := broadcastInDim S16x64x64x1 ![0, 1, 2] bcast_S16x64x64_S16x64x64x1_0_1_2 main_arg1
  let main_v15 : FVec F S16x64x1x64 .f32 := broadcastInDim S16x64x1x64 ![0, 1, 3] bcast_S16x64x64_S16x64x1x64_0_1_3 main_arg1
  let main_v16 : FVec F S16x64x64x64 .f32 := broadcastInDim S16x64x64x64 ![0, 1, 2, 3] bcast_S16x64x64x1_S16x64x64x64_0_1_2_3 main_v14
  let main_v17 : FVec F S16x64x64x64 .f32 := broadcastInDim S16x64x64x64 ![0, 1, 2, 3] bcast_S16x64x1x64_S16x64x64x64_0_1_2_3 main_v15
  fn_part1 (F := F) main_v13 main_v16 main_v17
-- ==== Kernel.lean ====
abbrev S16x64x64 : Shape := ⟨3, ![16, 64, 64]⟩
abbrev S16x64x3 : Shape := ⟨3, ![16, 64, 3]⟩
abbrev S16x64x6 : Shape := ⟨3, ![16, 64, 6]⟩
abbrev S1x64x64 : Shape := ⟨3, ![1, 64, 64]⟩
abbrev S1x64x3 : Shape := ⟨3, ![1, 64, 3]⟩
abbrev S1x64x6 : Shape := ⟨3, ![1, 64, 6]⟩
abbrev S64x64 : Shape := ⟨2, ![64, 64]⟩
abbrev S64x3 : Shape := ⟨2, ![64, 3]⟩
abbrev S64x1 : Shape := ⟨2, ![64, 1]⟩
abbrev S64 : Shape := ⟨1, ![64]⟩
abbrev S1x64 : Shape := ⟨2, ![1, 64]⟩
abbrev S64x64x1 : Shape := ⟨3, ![64, 64, 1]⟩
abbrev S64x1x64 : Shape := ⟨3, ![64, 1, 64]⟩
abbrev S64x64x64 : Shape := ⟨3, ![64, 64, 64]⟩
abbrev S64x6 : Shape := ⟨2, ![64, 6]⟩

abbrev nBuf : Space → Nat
  | .hbm => 4
  | .vmem => 8
  | .smem => 0
  | _ => 0

abbrev bufTy : (tb : Table) → Fin (tcTables nBuf tb) → BufTy
  | .hbm, ⟨0, _⟩ => ⟨S16x64x64, .f32⟩
  | .hbm, ⟨1, _⟩ => ⟨S16x64x64, .f32⟩
  | .hbm, ⟨2, _⟩ => ⟨S16x64x3, .f32⟩
  | .hbm, ⟨3, _⟩ => ⟨S16x64x6, .f32⟩
  | .local _ .vmem, ⟨0, _⟩ => ⟨S1x64x64, .f32⟩
  | .local _ .vmem, ⟨1, _⟩ => ⟨S1x64x64, .f32⟩
  | .local _ .vmem, ⟨2, _⟩ => ⟨S1x64x64, .f32⟩
  | .local _ .vmem, ⟨3, _⟩ => ⟨S1x64x64, .f32⟩
  | .local _ .vmem, ⟨4, _⟩ => ⟨S1x64x3, .f32⟩
  | .local _ .vmem, ⟨5, _⟩ => ⟨S1x64x3, .f32⟩
  | .local _ .vmem, ⟨6, _⟩ => ⟨S1x64x6, .f32⟩
  | .local _ .vmem, ⟨7, _⟩ => ⟨S1x64x6, .f32⟩
  | _, _ => ⟨S16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S1x64x3_S1x64x3_0_0_0 : ∀ a, (![0, 0, 0] : Fin 3 → Nat) a + S1x64x3.size a ≤ S1x64x3.size a
  h_S1x64x3 : 0 < S1x64x3.numel
  shapeCasts_S1x64x3_S64x3 : S1x64x3.ShapeCasts S64x3
  slices_S64x3_o0_0_S64x1 : S64x3.Slices ![0, 0] S64x1
  shapeCasts_S64x1_S64 : S64x1.ShapeCasts S64
  slices_S64x3_o0_1_S64x1 : S64x3.Slices ![0, 1] S64x1
  slices_S64x3_o0_2_S64x1 : S64x3.Slices ![0, 2] S64x1
  shapeCasts_S64_S64x1 : S64.ShapeCasts S64x1
  shapeCasts_S64_S1x64 : S64.ShapeCasts S1x64
  broadcasts_S64x1_S64x64 : S64x1.Broadcasts S64x64
  broadcasts_S1x64_S64x64 : S1x64.Broadcasts S64x64
  shapeCasts_S64x64_S64x64x1 : S64x64.ShapeCasts S64x64x1
  shapeCasts_S64x64_S64x1x64 : S64x64.ShapeCasts S64x1x64
  broadcasts_S64x64x1_S64x64x64 : S64x64x1.Broadcasts S64x64x64
  broadcasts_S64x1x64_S64x64x64 : S64x1x64.Broadcasts S64x64x64
  shapeCasts_S64x64_S1x64x64 : S64x64.ShapeCasts S1x64x64
  shapeCasts_S1x64x64_S1x64x64 : S1x64x64.ShapeCasts S1x64x64
  broadcasts_S1x64x64_S64x64x64 : S1x64x64.Broadcasts S64x64x64
  reduces_S64x64x64_S64x64 : S64x64x64.Reduces [2] S64x64
  reduces_S64x64_S64 : S64x64.Reduces [1] S64
  concatenates_S64x1_S64x1_S64x1_S64x1_S64x1_S64x1_S64x6_d1 : Shape.Concatenates [S64x1, S64x1, S64x1, S64x1, S64x1, S64x1] S64x6 1
  inb_S1x64x6_S1x64x6_0_0_0 : ∀ a, (![0, 0, 0] : Fin 3 → Nat) a + S1x64x6.size a ≤ S1x64x6.size a
  h_S1x64x6 : 0 < S1x64x6.numel
  shapeCasts_S1x64x6_S64x6 : S1x64x6.ShapeCasts S64x6
  shapeCasts_S64x6_S1x64x6 : S64x6.ShapeCasts S1x64x6
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64.size a ≤ S16x64x64.size a
  hwx0_0 : ∀ i : grid0.Coords, EltTy.bits .f32 = 32 ∨ (Rect.block (s := S16x64x64) S1x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S16x64x64.size a
  hwx0_1 : ∀ i : grid0.Coords, EltTy.bits .f32 = 32 ∨ (Rect.block (s := S16x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x3.size a ≤ S16x64x3.size a
  hwx0_2 : ∀ i : grid0.Coords, EltTy.bits .f32 = 32 ∨ (Rect.block (s := S16x64x3) S1x64x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x6.size a ≤ S16x64x6.size a
  hwx0_3 : ∀ i : grid0.Coords, EltTy.bits .f32 = 32 ∨ (Rect.block (s := S16x64x6) S1x64x6.size (cc0_transform_3 i) (hinb0_3 i)).WholeWords (EltTy.packing .f32)

variable [Facts₀]

abbrev win0_0 : Pipeline.Window sig grid0 :=
  Pipeline.Window.ofSpec (Memref.whole main_arg0) S1x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64x6.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x64x64 : Shape := ⟨3, ![16, 64, 64]⟩
abbrev S16x64x3 : Shape := ⟨3, ![16, 64, 3]⟩
abbrev S6 : Shape := ⟨1, ![6]⟩
abbrev S16x64x1x3 : Shape := ⟨4, ![16, 64, 1, 3]⟩
abbrev S16x1x64x3 : Shape := ⟨4, ![16, 1, 64, 3]⟩
abbrev S16x64x64x3 : Shape := ⟨4, ![16, 64, 64, 3]⟩
abbrev S16x64x64x1 : Shape := ⟨4, ![16, 64, 64, 1]⟩
abbrev S16x64x1x64 : Shape := ⟨4, ![16, 64, 1, 64]⟩
abbrev S16x1x64x64 : Shape := ⟨4, ![16, 1, 64, 64]⟩
abbrev S16x64x64x64 : Shape := ⟨4, ![16, 64, 64, 64]⟩
abbrev S_ : Shape := ⟨0, ![]⟩
abbrev S1x1x1x1x6 : Shape := ⟨5, ![1, 1, 1, 1, 6]⟩
abbrev S16x64x64x64x1 : Shape := ⟨5, ![16, 64, 64, 64, 1]⟩
abbrev S16x64x64x64x6 : Shape := ⟨5, ![16, 64, 64, 64, 6]⟩
abbrev S16x64x6 : Shape := ⟨3, ![16, 64, 6]⟩
abbrev S1x1x6 : Shape := ⟨3, ![1, 1, 6]⟩

abbrev nBuf : Space → Nat
  | .hbm => 72
  | .vmem => 0
  | .smem => 0
  | _ => 0

abbrev bufTy : (tb : Table) → Fin (tcTables nBuf tb) → BufTy
  | .hbm, ⟨0, _⟩ => ⟨S16x64x64, .f32⟩
  | .hbm, ⟨1, _⟩ => ⟨S16x64x64, .f32⟩
  | .hbm, ⟨2, _⟩ => ⟨S16x64x3, .f32⟩
  | .hbm, ⟨3, _⟩ => ⟨S6, .f32⟩
  | .hbm, ⟨4, _⟩ => ⟨S6, .f32⟩
  | .hbm, ⟨5, _⟩ => ⟨S6, .f32⟩
  | .hbm, ⟨6, _⟩ => ⟨S16x64x1x3, .f32⟩
  | .hbm, ⟨7, _⟩ => ⟨S16x1x64x3, .f32⟩
  | .hbm, ⟨8, _⟩ => ⟨S16x64x64x3, .f32⟩
  | .hbm, ⟨9, _⟩ => ⟨S16x64x64x3, .f32⟩
  | .hbm, ⟨10, _⟩ => ⟨S16x64x64x3, .f32⟩
  | .hbm, ⟨11, _⟩ => ⟨S16x64x64x1, .f32⟩
  | .hbm, ⟨12, _⟩ => ⟨S16x64x1x64, .f32⟩
  | .hbm, ⟨13, _⟩ => ⟨S16x1x64x64, .f32⟩
  | .hbm, ⟨14, _⟩ => ⟨S16x64x64x64, .f32⟩
  | .hbm, ⟨15, _⟩ => ⟨S16x64x64x64, .f32⟩
  | .hbm, ⟨16, _⟩ => ⟨S16x64x64x64, .f32⟩
  | .hbm, ⟨17, _⟩ => ⟨S16x64x64x64, .f32⟩
  | .hbm, ⟨18, _⟩ => ⟨S_, .f32⟩
  | .hbm, ⟨19, _⟩ => ⟨S16x64x64x64, .f32⟩
  | .hbm, ⟨20, _⟩ => ⟨S16x64x64x64, .f32⟩
  | .hbm, ⟨21, _⟩ => ⟨S16x64x64x64, .f32⟩
  | .hbm, ⟨22, _⟩ => ⟨S16x64x64x1, .f32⟩
  | .hbm, ⟨23, _⟩ => ⟨S16x64x1x64, .f32⟩
  | .hbm, ⟨24, _⟩ => ⟨S16x64x64x64, .f32⟩
  | .hbm, ⟨25, _⟩ => ⟨S16x64x64x64, .f32⟩
  | .hbm, ⟨26, _⟩ => ⟨S16x64x64x64, .f32⟩
  | .hbm, ⟨27, _⟩ => ⟨S16x1x64x64, .f32⟩
  | .hbm, ⟨28, _⟩ => ⟨S16x64x64x64, .f32⟩
  | .hbm, ⟨29, _⟩ => ⟨S16x64x64x64, .f32⟩
  | .hbm, ⟨30, _⟩ => ⟨S16x64x64x1, .f32⟩
  | .hbm, ⟨31, _⟩ => ⟨S16x64x1x64, .f32⟩
  | .hbm, ⟨32, _⟩ => ⟨S16x64x64x64, .f32⟩
  | .hbm, ⟨33, _⟩ => ⟨S16x64x64x64, .f32⟩
  | .hbm, ⟨34, _⟩ => ⟨S16x64x64x64, .f32⟩
  | .hbm, ⟨35, _⟩ => ⟨S16x1x64x64, .f32⟩
  | .hbm, ⟨36, _⟩ => ⟨S16x64x64x64, .f32⟩
  | .hbm, ⟨37, _⟩ => ⟨S16x64x64x64, .f32⟩
  | .hbm, ⟨38, _⟩ => ⟨S1x1x1x1x6, .f32⟩
  | .hbm, ⟨39, _⟩ => ⟨S1x1x1x1x6, .f32⟩
  | .hbm, ⟨40, _⟩ => ⟨S1x1x1x1x6, .f32⟩
  | .hbm, ⟨41, _⟩ => ⟨S16x64x64x64, .f32⟩
  | .hbm, ⟨42, _⟩ => ⟨S16x64x64x64x1, .f32⟩
  | .hbm, ⟨43, _⟩ => ⟨S16x64x64x64x6, .f32⟩
  | .hbm, ⟨44, _⟩ => ⟨S16x64x64x64x6, .f32⟩
  | .hbm, ⟨45, _⟩ => ⟨S16x64x64x64x6, .f32⟩
  | .hbm, ⟨46, _⟩ => ⟨S_, .f32⟩
  | .hbm, ⟨47, _⟩ => ⟨S16x64x64x64x6, .f32⟩
  | .hbm, ⟨48, _⟩ => ⟨S16x64x64x64x6, .f32⟩
  | .hbm, ⟨49, _⟩ => ⟨S16x64x64x64x6, .f32⟩
  | .hbm, ⟨50, _⟩ => ⟨S16x64x64x64x6, .f32⟩
  | .hbm, ⟨51, _⟩ => ⟨S1x1x1x1x6, .f32⟩
  | .hbm, ⟨52, _⟩ => ⟨S16x64x64x64x1, .f32⟩
  | .hbm, ⟨53, _⟩ => ⟨S16x64x64x64x6, .f32⟩
  | .hbm, ⟨54, _⟩ => ⟨S16x64x64x64x6, .f32⟩
  | .hbm, ⟨55, _⟩ => ⟨S16x64x64x64x6, .f32⟩
  | .hbm, ⟨56, _⟩ => ⟨S16x64x64x64x6, .f32⟩
  | .hbm, ⟨57, _⟩ => ⟨S16x64x64x64x6, .f32⟩
  | .hbm, ⟨58, _⟩ => ⟨S16x64x64x64x1, .f32⟩
  | .hbm, ⟨59, _⟩ => ⟨S16x64x64x64x6, .f32⟩
  | .hbm, ⟨60, _⟩ => ⟨S16x64x64x64x6, .f32⟩
  | .hbm, ⟨61, _⟩ => ⟨S_, .f32⟩
  | .hbm, ⟨62, _⟩ => ⟨S16x64x6, .f32⟩
  | .hbm, ⟨63, _⟩ => ⟨S1x1x6, .f32⟩
  | .hbm, ⟨64, _⟩ => ⟨S_, .f32⟩
  | .hbm, ⟨65, _⟩ => ⟨S1x1x6, .f32⟩
  | .hbm, ⟨66, _⟩ => ⟨S1x1x6, .f32⟩
  | .hbm, ⟨67, _⟩ => ⟨S_, .f32⟩
  | .hbm, ⟨68, _⟩ => ⟨S1x1x6, .f32⟩
  | .hbm, ⟨69, _⟩ => ⟨S1x1x6, .f32⟩
  | .hbm, ⟨70, _⟩ => ⟨S16x64x6, .f32⟩
  | .hbm, ⟨71, _⟩ => ⟨S16x64x6, .f32⟩
  | _, _ => ⟨S16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_4 : Ref sig .tc := ⟨.hbm, 61, rfl⟩
abbrev main_v53 : Ref sig .tc := ⟨.hbm, 62, rfl⟩
abbrev main_v54 : Ref sig .tc := ⟨.hbm, 63, rfl⟩
abbrev main_cst_5 : Ref sig .tc := ⟨.hbm, 64, rfl⟩
abbrev main_v55 : Ref sig .tc := ⟨.hbm, 65, rfl⟩
abbrev main_v56 : Ref sig .tc := ⟨.hbm, 66, rfl⟩
abbrev main_cst_6 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩

abbrev nD : Nat := 1
abbrev τ : Topo := Topo.v7x

variable {F : FTy → Type} [FloatOps F]

class Facts₀ : Prop where
  bcast_S16x64x3_S16x64x1x3_0_1_3 : S16x64x3.BroadcastsInDim S16x64x1x3 (![0, 1, 3] : Fin 3 → Fin S16x64x1x3.rank)
  bcast_S16x64x3_S16x1x64x3_0_2_3 : S16x64x3.BroadcastsInDim S16x1x64x3 (![0, 2, 3] : Fin 3 → Fin S16x1x64x3.rank)
  bcast_S16x64x1x3_S16x64x64x3_0_1_2_3 : S16x64x1x3.BroadcastsInDim S16x64x64x3 (![0, 1, 2, 3] : Fin 4 → Fin S16x64x64x3.rank)
  bcast_S16x1x64x3_S16x64x64x3_0_1_2_3 : S16x1x64x3.BroadcastsInDim S16x64x64x3 (![0, 1, 2, 3] : Fin 4 → Fin S16x64x64x3.rank)
  bcast_S16x64x64_S16x64x64x1_0_1_2 : S16x64x64.BroadcastsInDim S16x64x64x1 (![0, 1, 2] : Fin 3 → Fin S16x64x64x1.rank)
  bcast_S16x64x64_S16x64x1x64_0_1_3 : S16x64x64.BroadcastsInDim S16x64x1x64 (![0, 1, 3] : Fin 3 → Fin S16x64x1x64.rank)
  bcast_S16x64x64_S16x1x64x64_0_2_3 : S16x64x64.BroadcastsInDim S16x1x64x64 (![0, 2, 3] : Fin 3 → Fin S16x1x64x64.rank)
  bcast_S16x64x64x1_S16x64x64x64_0_1_2_3 : S16x64x64x1.BroadcastsInDim S16x64x64x64 (![0, 1, 2, 3] : Fin 4 → Fin S16x64x64x64.rank)
  bcast_S16x64x1x64_S16x64x64x64_0_1_2_3 : S16x64x1x64.BroadcastsInDim S16x64x64x64 (![0, 1, 2, 3] : Fin 4 → Fin S16x64x64x64.rank)
  bcast_S_S16x64x64x64 : S_.BroadcastsInDim S16x64x64x64 (![] : Fin 0 → Fin S16x64x64x64.rank)
  bcast_S16x1x64x64_S16x64x64x64_0_1_2_3 : S16x1x64x64.BroadcastsInDim S16x64x64x64 (![0, 1, 2, 3] : Fin 4 → Fin S16x64x64x64.rank)
  shapeCasts_S6_S1x1x1x1x6 : S6.ShapeCasts S1x1x1x1x6
  bcast_S16x64x64x64_S16x64x64x64x1_0_1_2_3 : S16x64x64x64.BroadcastsInDim S16x64x64x64x1 (![0, 1, 2, 3] : Fin 4 → Fin S16x64x64x64x1.rank)
  bcast_S1x1x1x1x6_S16x64x64x64x6_0_1_2_3_4 : S1x1x1x1x6.BroadcastsInDim S16x64x64x64x6 (![0, 1, 2, 3, 4] : Fin 5 → Fin S16x64x64x64x6.rank)
  bcast_S16x64x64x64x1_S16x64x64x64x6_0_1_2_3_4 : S16x64x64x64x1.BroadcastsInDim S16x64x64x64x6 (![0, 1, 2, 3, 4] : Fin 5 → Fin S16x64x64x64x6.rank)
  bcast_S_S16x64x64x64x6 : S_.BroadcastsInDim S16x64x64x64x6 (![] : Fin 0 → Fin S16x64x64x64x6.rank)
  reducesTo_S16x64x64x64x6_S16x64x6_d2_3 : S16x64x64x64x6.ReducesTo [2, 3] S16x64x6
  h_S_ : 0 < S_.numel
  shapeCasts_S6_S1x1x6 : S6.ShapeCasts S1x1x6
  bcast_S_S1x1x6 : S_.BroadcastsInDim S1x1x6 (![] : Fin 0 → Fin S1x1x6.rank)
  bcast_S1x1x6_S16x64x6_0_1_2 : S1x1x6.BroadcastsInDim S16x64x6 (![0, 1, 2] : Fin 3 → Fin S16x64x6.rank)
  dot_S16x64x64x3_S16x64x64x3_S16x64x64x64_3_3_2_2_01_01_wf : DotDims.WF S16x64x64x3 S16x64x64x3 S16x64x64x64 [3] [3] [2] [2] [0, 1] [0, 1]

variable [Facts₀]

def dot_S16x64x64x3_S16x64x64x3_S16x64x64x64_3_3_2_2_01_01 : DotDims S16x64x64x3 S16x64x64x3 S16x64x64x64 where
  lhsContracting := [3]
  rhsContracting := [3]
  lhsNonContracting := [2]
  rhsNonContracting := [2]
  lhsBatch := [0, 1]
  rhsBatch := [0, 1]
  wf := dot_S16x64x64x3_S16x64x64x3_S16x64x64x64_3_3_2_2_01_01_wf

class Facts : Prop extends Facts₀ where

variable [Facts]
-- ==== Proof.Spec.lean ====
/-
  The angular symmetry function, as mathematics over the extended reals.

  For one batch element, with atom coordinates x(i, ·) ∈ ℝ³, a distance table dd(i, j) and a cutoff table cc(i, j):
    num(i,j,k)  = Σ_{a<3} (x(i,a) − x(j,a)) · (x(i,a) − x(k,a))          (the dot product of two displacement vectors)
    den(i,j,k)  = dd(i,j) · dd(i,k) + ε
    cosT(i,j,k) = cos (num / den)
    ssq(i,j,k)  = dd(i,j)² + dd(i,k)² + dd(j,k)²,   fpr(i,j,k) = cc(i,j) · cc(i,k) · cc(j,k)
  and channel l ∈ {0,…,5} carries a sign λ_l ∈ {1,1,1,−1,−1,−1}, an exponent ζ_l ∈ {2,4,8,2,4,8} and a scale 2^(1−ζ_l):
    out(i,l) = 2^(1−ζ_l) · Σ_j Σ_k (1 + λ_l · cosT(i,j,k))^ζ_l · e^(−4·ssq(i,j,k)) · fpr(i,j,k).

  Two spellings of it are stated: one that raises to the power ζ_l by repeated squaring, multiplies by the
  folded scale and sums row by row (outK), and one that uses the real power function, computes the scale as
  2^(1−ζ_l) and sums over all pairs (j,k) at once from a zero start (outR). They agree wherever the coordinates
  and distances are real numbers and no denominator den(i,j,k) vanishes: then num/den is a real number, its
  cosine lies in [−1,1], the base 1 ± cos is a real number, and a real power with exponent 2, 4 or 8 is the
  repeated square.  Float literals stay as the words both programs spell.
-/
import Idealize.ShloMosaic.PureOps.Ideal
import Idealize.ShloMosaic.PureOps.Ideal.Laws
import Idealize.ShloMosaic.Lib.ValueIdx

noncomputable section

namespace Cert.Angular

open Idealize.ShloMosaic Idealize.ShloMosaic.ValueIdx

/-- The three whole-array shapes and the result's. -/
abbrev SPair : Shape := ⟨3, ![16, 64, 64]⟩
abbrev SCoord : Shape := ⟨3, ![16, 64, 3]⟩
abbrev SOut : Shape := ⟨3, ![16, 64, 6]⟩

/-- ε, the word 9.99999974e-6 both programs add to the product of two distances. -/
abbrev epsW : EReal := Ideal.ofBits .f32 0x3727C5AC#32
/-- The word 1.0. -/
abbrev oneW : EReal := Ideal.ofBits .f32 0x3F800000#32

/-- The dot product of the displacement vectors i→j and i→k, summed in the order (a = 0, 1) then 2. -/
def num (x : Fin 64 → Fin 3 → EReal) (i j k : Fin 64) : EReal :=
  ((x i 0 - x j 0) * (x i 0 - x k 0) + (x i 1 - x j 1) * (x i 1 - x k 1)) + (x i 2 - x j 2) * (x i 2 - x k 2)

/-- The denominator dd(i,j)·dd(i,k) + ε. -/
def den (dd : Fin 64 → Fin 64 → EReal) (i j k : Fin 64) : EReal := dd i j * dd i k + epsW

/-- cos (num / den). -/
def cosT (x : Fin 64 → Fin 3 → EReal) (dd : Fin 64 → Fin 64 → EReal) (i j k : Fin 64) : EReal :=
  Ideal.cos (Ideal.div (num x i j k) (den dd i j k))

/-- dd(i,j)² + dd(i,k)² + dd(j,k)², summed in that order. -/
def ssq (dd : Fin 64 → Fin 64 → EReal) (i j k : Fin 64) : EReal :=
  (dd i j * dd i j + dd i k * dd i k) + dd j k * dd j k

/-- cc(i,j)·cc(i,k)·cc(j,k), multiplied in that order. -/
def fpr (cc : Fin 64 → Fin 64 → EReal) (i j k : Fin 64) : EReal := (cc i j * cc i k) * cc j k

/-- 1 + λ·cosT, λ a float word. -/
def base (lam : BitVec 32) (x : Fin 64 → Fin 3 → EReal) (dd : Fin 64 → Fin 64 → EReal) (i j k : Fin 64) : EReal :=
  oneW + Ideal.ofBits .f32 lam * cosT x dd i j k

/-- Channel l's sign λ_l as a float word: 1.0 for l < 3, −1.0 otherwise. -/
def lamW : Fin 6 → BitVec 32 := fun
  | 0 => 0x3F800000#32 | 1 => 0x3F800000#32 | 2 => 0x3F800000#32 | 3 => 0xBF800000#32 | 4 => 0xBF800000#32 | 5 => 0xBF800000#32

/-- Channel l's exponent ζ_l as a float word: 2.0, 4.0, 8.0, 2.0, 4.0, 8.0. -/
def zetW : Fin 6 → BitVec 32 := fun
  | 0 => 0x40000000#32 | 1 => 0x40800000#32 | 2 => 0x41000000#32 | 3 => 0x40000000#32 | 4 => 0x40800000#32 | 5 => 0x41000000#32

/-- Channel l's folded scale 2^(1−ζ_l) as a float word: 0.5, 0.125, 0.0078125, and again. -/
def sclW : Fin 6 → BitVec 32 := fun
  | 0 => 0x3F000000#32 | 1 => 0x3E000000#32 | 2 => 0x3C000000#32 | 3 => 0x3F000000#32 | 4 => 0x3E000000#32 | 5 => 0x3C000000#32

/-- b ↦ b^ζ_l by repeated squaring: b·b, (b·b)·(b·b), ((b·b)·(b·b))·((b·b)·(b·b)). -/
def powK : Fin 6 → EReal → EReal := fun
  | 0 => fun b => b * b
  | 1 => fun b => (b * b) * (b * b)
  | 2 => fun b => ((b * b) * (b * b)) * ((b * b) * (b * b))
  | 3 => fun b => b * b
  | 4 => fun b => (b * b) * (b * b)
  | 5 => fun b => ((b * b) * (b * b)) * ((b * b) * (b * b))

/-- The weight e^(−4·ssq) · fpr with the literal −4.0. -/
def wK (dd cc : Fin 64 → Fin 64 → EReal) (i j k : Fin 64) : EReal :=
  Ideal.exp (Ideal.ofBits .f32 0xC0800000#32 * ssq dd i j k) * fpr cc i j k

/-- Row i, channel l, by repeated squaring, summed over k then over j, times the folded scale. -/
def outK (x : Fin 64 → Fin 3 → EReal) (dd cc : Fin 64 → Fin 64 → EReal) (i : Fin 64) (l : Fin 6) : EReal :=
  (∑ j : Fin 64, ∑ k : Fin 64, powK l (base (lamW l) x dd i j k) * wK dd cc i j k) * Ideal.ofBits .f32 (sclW l)

/-- Row i, channel l, with the real power, the exponential of (−(4.0))·ssq, summed over all (j,k) from a zero start,
    times 2^(1−ζ_l) computed as a power. -/
def outR (x : Fin 64 → Fin 3 → EReal) (dd cc : Fin 64 → Fin 64 → EReal) (i : Fin 64) (l : Fin 6) : EReal :=
  (Ideal.ofBits .f32 0x00000000#32 + ∑ j : Fin 64, ∑ k : Fin 64,
      (Ideal.pow (base (lamW l) x dd i j k) (Ideal.ofBits .f32 (zetW l))
        * Ideal.exp (-(Ideal.ofBits .f32 0x40800000#32) * ssq dd i j k)) * fpr cc i j k)
    * Ideal.pow (Ideal.ofBits .f32 0x40000000#32) (oneW - Ideal.ofBits .f32 (zetW l))

/-- The first coordinate of a result index, as a batch number. -/
def bOf (y : SOut.Idx) : Fin 16 := ⟨(y 0).val, (y 0).isLt⟩
/-- The second coordinate of a result index, as a row number. -/
def iOf (y : SOut.Idx) : Fin 64 := ⟨(y 1).val, (y 1).isLt⟩
/-- The third coordinate of a result index, as a channel number. -/
def lOf (y : SOut.Idx) : Fin 6 := ⟨(y 2).val, (y 2).isLt⟩

/-- Batch b of a coordinate array and of a pair table, as functions of row and column. -/
def rowX (X : SCoord.Idx → EReal) (b : Fin 16) : Fin 64 → Fin 3 → EReal := fun i a => X (ix3 b i a)
def rowM (D : SPair.Idx → EReal) (b : Fin 16) : Fin 64 → Fin 64 → EReal := fun i j => D (ix3 b i j)

/-- The whole result array from the cutoff table C, the distance table D and the coordinates X, in both spellings. -/
def GK (C D : SPair.Idx → EReal) (X : SCoord.Idx → EReal) : SOut.Idx → EReal :=
  fun y => outK (rowX X (bOf y)) (rowM D (bOf y)) (rowM C (bOf y)) (iOf y) (lOf y)
def GR (C D : SPair.Idx → EReal) (X : SCoord.Idx → EReal) : SOut.Idx → EReal :=
  fun y => outR (rowX X (bOf y)) (rowM D (bOf y)) (rowM C (bOf y)) (iOf y) (lOf y)

theorem GK_ix3 (C D : SPair.Idx → EReal) (X : SCoord.Idx → EReal) (b : Fin 16) (i : Fin 64) (l : Fin 6) :
    GK C D X (ix3 b i l) = outK (rowX X b) (rowM D b) (rowM C b) i l := rfl
theorem GR_ix3 (C D : SPair.Idx → EReal) (X : SCoord.Idx → EReal) (b : Fin 16) (i : Fin 64) (l : Fin 6) :
    GR C D X (ix3 b i l) = outR (rowX X b) (rowM D b) (rowM C b) i l := rfl

end Cert.Angular

end
-- ==== Proof.SpecLaw.lean ====
/-
  Why the two spellings of the angular symmetry function agree.

  Where the coordinates and the distances are real numbers and a denominator den(i,j,k) is non-zero, the quotient
  num/den is a real number, so its cosine c is a real number in [−1,1] and the base β = 1 + λ·c (λ = ±1) is a real
  number.  For a real base the power function of the extended reals is the real power, and β^2, β^4, β^8 with the
  exponent read as a real number are the repeated squares β·β, (β·β)·(β·β), ((β·β)·(β·β))·((β·β)·(β·β)).  The weight
  e^(−4·s)·f is the same on both sides: −(4) = −4, and a product of three extended reals may be re-bracketed.  The
  two scales agree because 2^(1−2) = 1/2, 2^(1−4) = 1/8 and 2^(1−8) = 1/128 exactly, and the sum from a zero start
  is the sum.
-/
import proofs.«112582_j68315749810414_1_alg».proof.Proof.Spec
import Mathlib.Analysis.SpecialFunctions.Pow.Real

noncomputable section

namespace Cert.Angular.Law

open Idealize.ShloMosaic Cert.Angular

/-! ## The float words as real numbers -/

theorem w_one : Ideal.ofBits .f32 0x3F800000#32 = ((1 : ℝ) : EReal) := by
  simp [Ideal.ofBits, Ideal.ieee, -EReal.coe_mul]; norm_num
theorem w_negone : Ideal.ofBits .f32 0xBF800000#32 = ((-1 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_four : Ideal.ofBits .f32 0x40800000#32 = ((4 : ℝ) : EReal) := by
  simp [Ideal.ofBits, Ideal.ieee, -EReal.coe_mul]; norm_num
theorem w_eight : Ideal.ofBits .f32 0x41000000#32 = ((8 : ℝ) : EReal) := by
  simp [Ideal.ofBits, Ideal.ieee, -EReal.coe_mul]; norm_num
theorem w_negfour : Ideal.ofBits .f32 0xC0800000#32 = ((-4 : ℝ) : EReal) := by
  simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_eighth : Ideal.ofBits .f32 0x3E000000#32 = ((1 / 8 : ℝ) : EReal) := by
  simp [Ideal.ofBits, Ideal.ieee, -EReal.coe_mul]; norm_num
theorem w_128th : Ideal.ofBits .f32 0x3C000000#32 = ((1 / 128 : ℝ) : EReal) := by
  simp [Ideal.ofBits, Ideal.ieee, -EReal.coe_mul]; norm_num

/-! ## Real numbers inside the extended reals -/

/-- An extended real that is a real number. -/
def IsR (t : EReal) : Prop := ∃ r : ℝ, t = (r : EReal)

theorem IsR.add {a b : EReal} : IsR a → IsR b → IsR (a + b) := by
  rintro ⟨x, rfl⟩ ⟨y, rfl⟩; exact ⟨x + y, (EReal.coe_add x y).symm⟩
theorem IsR.sub {a b : EReal} : IsR a → IsR b → IsR (a - b) := by
  rintro ⟨x, rfl⟩ ⟨y, rfl⟩; exact ⟨x - y, (EReal.coe_sub x y).symm⟩
theorem IsR.mul {a b : EReal} : IsR a → IsR b → IsR (a * b) := by
  rintro ⟨x, rfl⟩ ⟨y, rfl⟩; exact ⟨x * y, (EReal.coe_mul x y).symm⟩

theorem eps_real : IsR epsW := by
  unfold IsR epsW
  simp [Ideal.ofBits, Ideal.ieee, -EReal.coe_mul]

/-- The dot product of two displacement vectors of real coordinates is a real number. -/
theorem num_real {x : Fin 64 → Fin 3 → EReal} (hx : ∀ i a, IsR (x i a)) (i j k : Fin 64) : IsR (num x i j k) := by
  unfold num
  exact ((((hx i 0).sub (hx j 0)).mul ((hx i 0).sub (hx k 0))).add (((hx i 1).sub (hx j 1)).mul ((hx i 1).sub (hx k 1)))).add
    (((hx i 2).sub (hx j 2)).mul ((hx i 2).sub (hx k 2)))

/-- The denominator of real distances is a real number. -/
theorem den_real {dd : Fin 64 → Fin 64 → EReal} (hd : ∀ i j, IsR (dd i j)) (i j k : Fin 64) : IsR (den dd i j k) := by
  unfold den
  exact ((hd i j).mul (hd i k)).add eps_real

/-- The cosine of a quotient of real numbers with a non-zero denominator is a real number. -/
theorem cos_div_real {n d : EReal} (hn : IsR n) (hd : IsR d) (hd0 : d ≠ 0) : IsR (Ideal.cos (Ideal.div n d)) := by
  obtain ⟨n, rfl⟩ := hn
  obtain ⟨d, rfl⟩ := hd
  unfold Ideal.div
  rw [if_neg hd0, ← EReal.coe_inv, ← EReal.coe_mul]
  exact ⟨Real.cos (n * d⁻¹), rfl⟩

/-! ## Real powers with exponent 2, 4, 8 -/

theorem pow_two (β : ℝ) : Ideal.pow (β : EReal) ((2 : ℝ) : EReal) = (β : EReal) * β := by
  show ((β ^ (2 : ℝ) : ℝ) : EReal) = _
  rw [← EReal.coe_mul, Real.rpow_two]
  congr 1; ring

theorem pow_four (β : ℝ) : Ideal.pow (β : EReal) ((4 : ℝ) : EReal) = ((β : EReal) * β) * ((β : EReal) * β) := by
  show ((β ^ (4 : ℝ) : ℝ) : EReal) = _
  have h : β ^ (4 : ℝ) = β ^ (4 : ℕ) := by exact_mod_cast Real.rpow_natCast β 4
  rw [h, ← EReal.coe_mul, ← EReal.coe_mul]
  congr 1; ring

theorem pow_eight (β : ℝ) : Ideal.pow (β : EReal) ((8 : ℝ) : EReal)
    = (((β : EReal) * β) * ((β : EReal) * β)) * (((β : EReal) * β) * ((β : EReal) * β)) := by
  show ((β ^ (8 : ℝ) : ℝ) : EReal) = _
  have h : β ^ (8 : ℝ) = β ^ (8 : ℕ) := by exact_mod_cast Real.rpow_natCast β 8
  rw [h, ← EReal.coe_mul, ← EReal.coe_mul, ← EReal.coe_mul]
  congr 1; ring

/-- 2^(−n) for a natural n, as a real power. -/
theorem two_rpow_neg (n : ℕ) : (2 : ℝ) ^ (-(n : ℝ)) = ((2 : ℝ) ^ n)⁻¹ := by
  rw [Real.rpow_neg (by norm_num), Real.rpow_natCast]

/-- The scale 2^(1−ζ) for ζ = 2, 4, 8. -/
theorem scale_two : Ideal.pow ((2 : ℝ) : EReal) (((1 : ℝ) : EReal) - ((2 : ℝ) : EReal)) = ((1 / 2 : ℝ) : EReal) := by
  rw [← EReal.coe_sub]
  show (((2 : ℝ) ^ ((1 : ℝ) - 2) : ℝ) : EReal) = _
  have h : ((1 : ℝ) - 2) = -((1 : ℕ) : ℝ) := by norm_num
  rw [h, two_rpow_neg]; norm_num
theorem scale_four : Ideal.pow ((2 : ℝ) : EReal) (((1 : ℝ) : EReal) - ((4 : ℝ) : EReal)) = ((1 / 8 : ℝ) : EReal) := by
  rw [← EReal.coe_sub]
  show (((2 : ℝ) ^ ((1 : ℝ) - 4) : ℝ) : EReal) = _
  have h : ((1 : ℝ) - 4) = -((3 : ℕ) : ℝ) := by norm_num
  rw [h, two_rpow_neg]; norm_num
theorem scale_eight : Ideal.pow ((2 : ℝ) : EReal) (((1 : ℝ) : EReal) - ((8 : ℝ) : EReal)) = ((1 / 128 : ℝ) : EReal) := by
  rw [← EReal.coe_sub]
  show (((2 : ℝ) ^ ((1 : ℝ) - 8) : ℝ) : EReal) = _
  have h : ((1 : ℝ) - 8) = -((7 : ℕ) : ℝ) := by norm_num
  rw [h, two_rpow_neg]; norm_num

/-! ## One summand, and the scale -/

/-- −(4.0) is −4.0. -/
theorem neg_four : -(Ideal.ofBits .f32 0x40800000#32) = Ideal.ofBits .f32 0xC0800000#32 := by
  rw [w_four, w_negfour, ← EReal.coe_neg]

/-- One summand for any sign word λ and exponent word ζ that denote real numbers, and any way P of computing the
    real power with exponent ζ on real bases: with a real cosine t, the power of the base times the weight is P of
    the base times the weight. -/
theorem summand_of (lam zet : BitVec 32) (P : EReal → EReal) (lr zr : ℝ)
    (hl : Ideal.ofBits .f32 lam = (lr : EReal)) (hz : Ideal.ofBits .f32 zet = (zr : EReal))
    (hP : ∀ β : ℝ, Ideal.pow (β : EReal) (zr : EReal) = P (β : EReal)) (t s f : EReal) (ht : IsR t) :
    (Ideal.pow (oneW + Ideal.ofBits .f32 lam * t) (Ideal.ofBits .f32 zet)
        * Ideal.exp (-(Ideal.ofBits .f32 0x40800000#32) * s)) * f
      = P (oneW + Ideal.ofBits .f32 lam * t) * (Ideal.exp (Ideal.ofBits .f32 0xC0800000#32 * s) * f) := by
  obtain ⟨c, rfl⟩ := ht
  rw [neg_four, mul_assoc]
  congr 1
  simp only [oneW]
  rw [w_one, hl, hz, ← EReal.coe_mul, ← EReal.coe_add, hP]

/-- One summand of channel l. -/
theorem summand (l : Fin 6) (t s f : EReal) (ht : IsR t) :
    (Ideal.pow (oneW + Ideal.ofBits .f32 (lamW l) * t) (Ideal.ofBits .f32 (zetW l))
        * Ideal.exp (-(Ideal.ofBits .f32 0x40800000#32) * s)) * f
      = powK l (oneW + Ideal.ofBits .f32 (lamW l) * t) * (Ideal.exp (Ideal.ofBits .f32 0xC0800000#32 * s) * f) := by
  fin_cases l
  · exact summand_of 0x3F800000#32 0x40000000#32 (fun b => b * b) 1 2 w_one w_two pow_two t s f ht
  · exact summand_of 0x3F800000#32 0x40800000#32 (fun b => (b * b) * (b * b)) 1 4 w_one w_four pow_four t s f ht
  · exact summand_of 0x3F800000#32 0x41000000#32 (fun b => ((b * b) * (b * b)) * ((b * b) * (b * b))) 1 8 w_one w_eight pow_eight t s f ht
  · exact summand_of 0xBF800000#32 0x40000000#32 (fun b => b * b) (-1) 2 w_negone w_two pow_two t s f ht
  · exact summand_of 0xBF800000#32 0x40800000#32 (fun b => (b * b) * (b * b)) (-1) 4 w_negone w_four pow_four t s f ht
  · exact summand_of 0xBF800000#32 0x41000000#32 (fun b => ((b * b) * (b * b)) * ((b * b) * (b * b))) (-1) 8 w_negone w_eight pow_eight t s f ht

/-- The scale: 2^(1−ζ_l) computed as a power is the folded word. -/
theorem scale (l : Fin 6) :
    Ideal.pow (Ideal.ofBits .f32 0x40000000#32) (oneW - Ideal.ofBits .f32 (zetW l)) = Ideal.ofBits .f32 (sclW l) := by
  fin_cases l
  · show Ideal.pow (Ideal.ofBits .f32 0x40000000#32) (oneW - Ideal.ofBits .f32 0x40000000#32) = Ideal.ofBits .f32 0x3F000000#32
    simp only [oneW]; rw [w_one, w_two, w_half, scale_two]
  · show Ideal.pow (Ideal.ofBits .f32 0x40000000#32) (oneW - Ideal.ofBits .f32 0x40800000#32) = Ideal.ofBits .f32 0x3E000000#32
    simp only [oneW]; rw [w_one, w_two, w_four, w_eighth, scale_four]
  · show Ideal.pow (Ideal.ofBits .f32 0x40000000#32) (oneW - Ideal.ofBits .f32 0x41000000#32) = Ideal.ofBits .f32 0x3C000000#32
    simp only [oneW]; rw [w_one, w_two, w_eight, w_128th, scale_eight]
  · show Ideal.pow (Ideal.ofBits .f32 0x40000000#32) (oneW - Ideal.ofBits .f32 0x40000000#32) = Ideal.ofBits .f32 0x3F000000#32
    simp only [oneW]; rw [w_one, w_two, w_half, scale_two]
  · show Ideal.pow (Ideal.ofBits .f32 0x40000000#32) (oneW - Ideal.ofBits .f32 0x40800000#32) = Ideal.ofBits .f32 0x3E000000#32
    simp only [oneW]; rw [w_one, w_two, w_four, w_eighth, scale_four]
  · show Ideal.pow (Ideal.ofBits .f32 0x40000000#32) (oneW - Ideal.ofBits .f32 0x41000000#32) = Ideal.ofBits .f32 0x3C000000#32
    simp only [oneW]; rw [w_one, w_two, w_eight, w_128th, scale_eight]

/-! ## The law -/

/-- The two spellings agree row by row where coordinates and distances are real numbers and no denominator vanishes. -/
theorem outR_eq_outK (x : Fin 64 → Fin 3 → EReal) (dd cc : Fin 64 → Fin 64 → EReal)
    (hx : ∀ i a, ∃ r : ℝ, x i a = (r : EReal)) (hd : ∀ i j, ∃ r : ℝ, dd i j = (r : EReal))
    (hden : ∀ i j k, den dd i j k ≠ 0) (i : Fin 64) (l : Fin 6) :
    outR x dd cc i l = outK x dd cc i l := by
  unfold outR outK
  rw [Ideal.ofBits_zero_f32, zero_add, scale l]
  congr 1
  refine Finset.sum_congr rfl fun j _ => Finset.sum_congr rfl fun k _ => ?_
  unfold base wK
  exact summand l _ _ _ (cos_div_real (num_real hx i j k) (den_real hd i j k) (hden i j k))

/-- Hence the two whole arrays agree. -/
theorem GR_eq_GK (C D : SPair.Idx → EReal) (X : SCoord.Idx → EReal)
    (hX : ∀ q : SCoord.Idx, ∃ r : ℝ, X q = (r : EReal)) (hD : ∀ q : SPair.Idx, ∃ r : ℝ, D q = (r : EReal))
    (hden : ∀ (b : Fin 16) (i j k : Fin 64), D (ValueIdx.ix3 b i j) * D (ValueIdx.ix3 b i k) + epsW ≠ 0) :
    GR C D X = GK C D X := by
  funext y
  exact outR_eq_outK _ _ _ (fun i a => hX _) (fun i j => hD _) (fun i j k => hden _ i j k) _ _

end Cert.Angular.Law

end
-- ==== Proof.PreFacts.lean ====
/-
  What the precondition says of the inputs, entry by entry: every distance and every coordinate is a real number,
  and no denominator dd(i,j)·dd(i,k) + ε vanishes.

  The precondition is a conjunction of four "for all entries" tests. Three say |x| < +∞ of an entry x of a table; the absolute
  value of an extended real is max x (−x), which is +∞ at both infinities, so such an entry is a real number. The fourth
  lays the distance table twice into a four-axis box, once along axes (0, 1, 2) and once along axes (0, 1, 3), so that the
  entry (b, i, j, k) of the product is dd(b, i, j) · dd(b, i, k), adds ε and tests the sum against zero.
-/
import proofs.«112582_j68315749810414_1_alg».proof.Pre_finite_inputs
import proofs.«112582_j68315749810414_1_alg».proof.Proof.Spec
import Idealize.ShloMosaic.Lib.ReduceAll
import Idealize.ShloMosaic.Lib.Pipeline.Value

noncomputable section

namespace Cert.Angular.PreFacts

open Idealize.ShloMosaic Idealize.ShloMosaic.ValueIdx Cert.Angular

/-- The rank-0 shape has exactly one index. -/
instance : Subsingleton Cert.Pre_finite_inputs.S_.Idx := ⟨fun a b => funext fun d => d.elim0⟩

/-- The word 0x7F800000 encodes +∞. -/
theorem inf_word : Ideal.ofBits .f32 0x7F800000#32 = (⊤ : EReal) := by
  simp [Ideal.ofBits, Ideal.ieee]

/-- An extended real whose absolute value max x (−x) lies strictly below +∞ is a real number: at −∞ and at +∞ the
    absolute value is +∞ itself, which is not below +∞. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

/-- A "not equal" comparison that holds says its two operands differ. -/
theorem ne_of_une (x y : EReal) (h : Ideal.cmp .une x y = 1#1) : x ≠ y := by
  intro e
  subst e
  simp [Ideal.cmp] at h

section Reads
variable [Cert.Pre_finite_inputs.Facts]
open Cert.Pre_finite_inputs Cert.Pre_finite_inputs.Facts

/-- The distance table laid along axes (0, 1, 2) of the four-axis box reads, at (b, i, j, k), its entry (b, i, j):
    first a unit fourth axis is appended, then that axis is stretched to 64. -/
theorem read_ij (a1 : SPair.Idx → EReal) (b : Fin 16) (i j k : Fin 64) :
    broadcastInDim S16x64x64x64 ![0, 1, 2, 3] bcast_S16x64x64x1_S16x64x64x64_0_1_2_3
        (broadcastInDim S16x64x64x1 ![0, 1, 2] bcast_S16x64x64_S16x64x64x1_0_1_2 a1) (ix4 b i j k) = a1 (ix3 b i j) := by
  rw [broadcastInDim_apply _ _ _ (ix4 b i j k) (ix4 b i j (0 : Fin 1)) (fun a => by fin_cases a <;> rfl),
    broadcastInDim_apply _ _ _ (ix4 b i j (0 : Fin 1)) (ix3 b i j) (fun a => by fin_cases a <;> rfl)]

/-- Laid along axes (0, 1, 3) it reads, at (b, i, j, k), its entry (b, i, k): a unit third axis is inserted, then
    stretched to 64. -/
theorem read_ik (a1 : SPair.Idx → EReal) (b : Fin 16) (i j k : Fin 64) :
    broadcastInDim S16x64x64x64 ![0, 1, 2, 3] bcast_S16x64x1x64_S16x64x64x64_0_1_2_3
        (broadcastInDim S16x64x1x64 ![0, 1, 3] bcast_S16x64x64_S16x64x1x64_0_1_3 a1) (ix4 b i j k) = a1 (ix3 b i k) := by
  rw [broadcastInDim_apply _ _ _ (ix4 b i j k) (ix4 b i (0 : Fin 1) k) (fun a => by fin_cases a <;> rfl),
    broadcastInDim_apply _ _ _ (ix4 b i (0 : Fin 1) k) (ix3 b i k) (fun a => by fin_cases a <;> rfl)]

end Reads

/-- From the precondition's value all-ones: the distance table and the coordinates hold real numbers, and every
    denominator is non-zero. -/
theorem of_pre [Cert.Pre_finite_inputs.Facts] (a0 a1 : SPair.Idx → EReal) (a2 : SCoord.Idx → EReal)
    (h : Cert.Pre_finite_inputs.fn (F := Ideal) a0 a1 a2 = fun _ => 1#1) :
    (∀ q : SPair.Idx, ∃ r : ℝ, a1 q = (r : EReal)) ∧ (∀ q : SCoord.Idx, ∃ r : ℝ, a2 q = (r : EReal))
      ∧ ∀ (b : Fin 16) (i j k : Fin 64), a1 (ix3 b i j) * a1 (ix3 b i k) + epsW ≠ 0 := by
  -- the precondition at its one index: a conjunction of four tests, each a conjunction over all entries of an array
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨-, h2⟩ := IntOp.andi_eq_one.1 h12
  refine ⟨fun q => ?_, fun q => ?_, fun b i j k => ?_⟩
  · -- the second test at entry q: |a1 q| < +∞
    exact real_of_abs_lt (a1 q) (Host.reduce_andi_all _ _ _ _ _ h2 q)
  · -- the third test at entry q: |a2 q| < +∞
    exact real_of_abs_lt (a2 q) (Host.reduce_andi_all _ _ _ _ _ h3 q)
  · -- the fourth test at entry (b, i, j, k): dd(b,i,j) · dd(b,i,k) + ε differs from the zero word's value, which is 0
    have e := Host.reduce_andi_all _ _ _ _ _ h4 (ix4 b i j k)
    rw [cmpf_apply, addf_apply, mulf_apply, read_ij, read_ik] at e
    have e' : a1 (ix3 b i j) * a1 (ix3 b i k) + epsW ≠ Ideal.ofBits .f32 0x00000000#32 := ne_of_une _ _ e
    rwa [Ideal.ofBits_zero_f32] at e'

end Cert.Angular.PreFacts

end
-- ==== Proof.KerBlock.lean ====
/-
  One grid point of the kernel: what the body leaves in the output block, entry by entry, as the row formula outK
  of the three input blocks.
-/
import proofs.«112582_j68315749810414_1_alg».proof.Proof.Gen.KernelIdeal.Value
import proofs.«112582_j68315749810414_1_alg».proof.Proof.Spec
import Idealize.ShloMosaic.Lib.Pipeline.Value
import Idealize.ShloMosaic.Lib.ValueLayout

noncomputable section

namespace Cert.KernelIdeal.KerBlock

open Cert.KernelIdeal Cert.KernelIdeal.Gen Idealize.ShloMosaic Idealize.ShloMosaic.ValueIdx Cert.Angular
open scoped BigOperators

/-! ## Layout operations of this body read at an index -/

section Layout
variable {α : Type}

/-- A [64,64] table viewed [64,64,1] reads (i, j) at (i, j, 0). -/
theorem cast_col (v : S64x64.Idx → α) (h : S64x64.ShapeCasts S64x64x1) (i j : Fin 64) (z : Fin 1) :
    shapeCast S64x64x1 v h (ix3 i j z) = v (ix2 i j) :=
  shapeCast_apply v h _ _ (by
    have hz : z.val = 0 := by omega
    rw [Shape.rowMajor_val_two, Shape.rowMajor_val_three]
    show i.val * 64 + j.val = (i.val * 64 + j.val) * 1 + z.val
    omega)

/-- A [64,64] table viewed [64,1,64] reads (i, k) at (i, 0, k). -/
theorem cast_row (v : S64x64.Idx → α) (h : S64x64.ShapeCasts S64x1x64) (i : Fin 64) (z : Fin 1) (k : Fin 64) :
    shapeCast S64x1x64 v h (ix3 i z k) = v (ix2 i k) :=
  shapeCast_apply v h _ _ (by
    have hz : z.val = 0 := by omega
    rw [Shape.rowMajor_val_two, Shape.rowMajor_val_three]
    show i.val * 64 + k.val = (i.val * 1 + z.val) * 64 + k.val
    omega)

/-- A [64] vector viewed [64,1] reads i at (i, 0). -/
theorem cast_vec_col (v : S64.Idx → α) (h : S64.ShapeCasts S64x1) (i : Fin 64) (z : Fin 1) :
    shapeCast S64x1 v h (ix2 i z) = v (ix1 i) :=
  shapeCast_apply v h _ _ (by
    have hz : z.val = 0 := by omega
    rw [Shape.rowMajor_val_two, Shape.rowMajor_val_one]
    show i.val = i.val * 1 + z.val
    omega)

/-- A [64,1] column viewed [64] reads (i, 0) at i. -/
theorem cast_col_vec (v : S64x1.Idx → α) (h : S64x1.ShapeCasts S64) (i : Fin 64) :
    shapeCast S64 v h (ix1 i) = v (ix2 i (0 : Fin 1)) :=
  shapeCast_apply v h _ _ (by
    rw [Shape.rowMajor_val_two, Shape.rowMajor_val_one]
    show i.val * 1 + 0 = i.val
    omega)

/-- A [64,1] column broadcast to [64,64] reads its row everywhere along it. -/
theorem bcast_col2 (w : S64x1.Idx → α) (h : S64x1.Broadcasts S64x64) (i j : Fin 64) :
    broadcastTo S64x64 w h (ix2 i j) = w (ix2 i (0 : Fin 1)) := by
  refine broadcastTo_apply w h (ix2 i j) (ix2 i (0 : Fin 1)) fun ax => ?_
  match ax with
  | ⟨0, _⟩ => rfl
  | ⟨1, _⟩ => rfl

/-- A [64,64,1] table broadcast to [64,64,64] reads (i, j, 0) at (i, j, k). -/
theorem bcast_col (w : S64x64x1.Idx → α) (h : S64x64x1.Broadcasts S64x64x64) (i j k : Fin 64) :
    broadcastTo S64x64x64 w h (ix3 i j k) = w (ix3 i j (0 : Fin 1)) := by
  refine broadcastTo_apply w h (ix3 i j k) (ix3 i j (0 : Fin 1)) fun ax => ?_
  match ax with
  | ⟨0, _⟩ => rfl
  | ⟨1, _⟩ => rfl
  | ⟨2, _⟩ => rfl

/-- A [64,1,64] table broadcast to [64,64,64] reads (i, 0, k) at (i, j, k). -/
theorem bcast_row (w : S64x1x64.Idx → α) (h : S64x1x64.Broadcasts S64x64x64) (i j k : Fin 64) :
    broadcastTo S64x64x64 w h (ix3 i j k) = w (ix3 i (0 : Fin 1) k) := by
  refine broadcastTo_apply w h (ix3 i j k) (ix3 i (0 : Fin 1) k) fun ax => ?_
  match ax with
  | ⟨0, _⟩ => rfl
  | ⟨1, _⟩ => rfl
  | ⟨2, _⟩ => rfl

/-- A [1,64,64] table broadcast to [64,64,64] reads (0, j, k) at (i, j, k). -/
theorem bcast_lead (w : S1x64x64.Idx → α) (h : S1x64x64.Broadcasts S64x64x64) (i j k : Fin 64) :
    broadcastTo S64x64x64 w h (ix3 i j k) = w (ix3 (0 : Fin 1) j k) := by
  refine broadcastTo_apply w h (ix3 i j k) (ix3 (0 : Fin 1) j k) fun ax => ?_
  match ax with
  | ⟨0, _⟩ => rfl
  | ⟨1, _⟩ => rfl
  | ⟨2, _⟩ => rfl

end Layout

/-- The sum along the last axis of a [64,64,64] table, at (i, j): the sum over k of its entries (i, j, k). -/
theorem sum_last (v : FVec Ideal S64x64x64 .f32) (h : S64x64x64.Reduces [2] S64x64) (hφ : FKind.Formats .f32)
    (hacc : (0x00000000#32 : BitVec 32) = 0x00000000#32) (i j : Fin 64) :
    multiReduction (F := Ideal) .add [2] S64x64 v 0x00000000#32 h hφ hacc (ix2 i j) = ∑ k : Fin 64, v (ix3 i j k) := by
  refine (Ideal.multiReduction_add_single v 0x00000000#32 h hφ hacc (ix2 i j)).trans ?_
  show ∑ k : Fin 64, v (h.lift (ix2 i j) k) = _
  refine Finset.sum_congr rfl fun k _ => congrArg v ?_
  funext a
  match a with
  | ⟨0, _⟩ => exact Fin.ext rfl
  | ⟨1, _⟩ => exact Fin.ext rfl
  | ⟨2, _⟩ => exact Fin.ext rfl

/-- The sum along the last axis of a [64,64] table, at i: the sum over j of its entries (i, j). -/
theorem sum_rows (v : FVec Ideal S64x64 .f32) (h : S64x64.Reduces [1] S64) (hφ : FKind.Formats .f32)
    (hacc : (0x00000000#32 : BitVec 32) = 0x00000000#32) (i : Fin 64) :
    multiReduction (F := Ideal) .add [1] S64 v 0x00000000#32 h hφ hacc (ix1 i) = ∑ j : Fin 64, v (ix2 i j) := by
  refine (Ideal.multiReduction_add_single v 0x00000000#32 h hφ hacc (ix1 i)).trans ?_
  show ∑ j : Fin 64, v (h.lift (ix1 i) j) = _
  refine Finset.sum_congr rfl fun j _ => congrArg v ?_
  funext a
  match a with
  | ⟨0, _⟩ => exact Fin.ext rfl
  | ⟨1, _⟩ => exact Fin.ext rfl

/-! ## The body's tables read at an index -/

/-- The cutoff block as a [64,64] table. -/
theorem cutoff_apply (x0 : Vec Ideal S1x64x64 .f32) (i j : Fin 64) : k0_pay2 x0 (ix2 i j) = x0 (ix3 0 i j) := by
  unfold k0_pay2
  exact shapeCast_1ab_ab_apply x0 _ i j

/-- The distance block as a [64,64] table. -/
theorem dist_apply (x1 : Vec Ideal S1x64x64 .f32) (i j : Fin 64) : k0_pay3 x1 (ix2 i j) = x1 (ix3 0 i j) := by
  unfold k0_pay3
  exact shapeCast_1ab_ab_apply x1 _ i j

/-- The distance table laid [64,64,1] reads d(i,j) at (i, j, 0). -/
theorem dist_col_apply (x1 : Vec Ideal S1x64x64 .f32) (i j : Fin 64) (z : Fin 1) :
    k0_pay5 x1 (ix3 i j z) = x1 (ix3 0 i j) := by
  unfold k0_pay5
  rw [cast_col, dist_apply]

/-- The distance table laid [64,1,64] reads d(i,k) at (i, 0, k). -/
theorem dist_row_apply (x1 : Vec Ideal S1x64x64 .f32) (i : Fin 64) (z : Fin 1) (k : Fin 64) :
    k0_pay6 x1 (ix3 i z k) = x1 (ix3 0 i k) := by
  unfold k0_pay6
  rw [cast_row, dist_apply]

/-- The distance table broadcast along a new leading axis reads d(j,k) at (i, j, k). -/
theorem dist_jk_apply (x1 : Vec Ideal S1x64x64 .f32) (i j k : Fin 64) : k0_pay7 x1 (ix3 i j k) = x1 (ix3 0 j k) := by
  unfold k0_pay7
  rw [bcast_lead, shapeCast_self, shapeCast_ab_1ab_apply, dist_apply]

/-- The distance table broadcast along a new last axis reads d(i,j) at (i, j, k). -/
theorem dist_ij_apply (x1 : Vec Ideal S1x64x64 .f32) (i j k : Fin 64) : k0_pay8 x1 (ix3 i j k) = x1 (ix3 0 i j) := by
  unfold k0_pay8
  rw [bcast_col, dist_col_apply]

/-- Column o of a [64,3] table, as a vector. -/
theorem coord_col {α : Type} (v : S64x3.Idx → α) (o : Nat) (ho : o < 3) (h : S64x3.Slices ![0, o] S64x1)
    (h' : S64x1.ShapeCasts S64) (i : Fin 64) :
    shapeCast S64 (extractStridedSlice S64x1 ![0, o] v h) h' (ix1 i) = v (ix2 i ⟨o, ho⟩) :=
  (cast_col_vec _ h' i).trans (slice2_axis1_apply o v h i 0 ⟨o, ho⟩ (by show o = o + 0; omega))

/-- The table of differences v(i) − v(j) of a vector v. -/
theorem outer_diff (v : FVec Ideal S64 .f32) (h1 : S64.ShapeCasts S64x1) (h2 : S64.ShapeCasts S1x64)
    (h3 : S64x1.Broadcasts S64x64) (h4 : S1x64.Broadcasts S64x64) (i j : Fin 64) :
    subf (broadcastTo S64x64 (shapeCast S64x1 v h1) h3) (broadcastTo S64x64 (shapeCast S1x64 v h2) h4) (ix2 i j)
      = v (ix1 i) - v (ix1 j) := by
  rw [subf_apply, bcast_col2, cast_vec_col, broadcastTo_1b_ab_apply, shapeCast_a_1a_apply]

/-- The products t(i,j)·t(i,k) of a table t with itself. -/
theorem pair_prod (t : FVec Ideal S64x64 .f32) (h1 : S64x64.ShapeCasts S64x64x1) (h2 : S64x64.ShapeCasts S64x1x64)
    (h3 : S64x64x1.Broadcasts S64x64x64) (h4 : S64x1x64.Broadcasts S64x64x64) (i j k : Fin 64) :
    mulf (broadcastTo S64x64x64 (shapeCast S64x64x1 t h1) h3) (broadcastTo S64x64x64 (shapeCast S64x1x64 t h2) h4) (ix3 i j k)
      = t (ix2 i j) * t (ix2 i k) := by
  rw [mulf_apply, bcast_col, cast_col, bcast_row, cast_row]

/-- The dot product of the two displacement vectors at (i, j, k). -/
theorem num_apply (x2 : Vec Ideal S1x64x3 .f32) (i j k : Fin 64) :
    k0_pay4 x2 (ix3 i j k) = num (fun i a => x2 (ix3 0 i a)) i j k := by
  unfold k0_pay4
  rw [addf_apply, addf_apply, pair_prod, pair_prod, pair_prod]
  simp only [outer_diff, coord_col _ 0 (by decide : 0 < 3), coord_col _ 1 (by decide : 1 < 3),
    coord_col _ 2 (by decide : 2 < 3), shapeCast_1ab_ab_apply]
  rfl

/-- cos (num / (d(i,j)·d(i,k) + ε)) at (i, j, k). -/
theorem cos_apply (x1 : Vec Ideal S1x64x64 .f32) (x2 : Vec Ideal S1x64x3 .f32) (i j k : Fin 64) :
    k0_pay9 (k0_pay4 x2) (k0_pay6 x1) (k0_pay8 x1) (ix3 i j k)
      = cosT (fun i a => x2 (ix3 0 i a)) (fun i j => x1 (ix3 0 i j)) i j k := by
  unfold k0_pay9
  show Ideal.cos (Ideal.div (k0_pay4 x2 (ix3 i j k))
      (k0_pay8 x1 (ix3 i j k) * broadcastTo S64x64x64 (k0_pay6 x1) broadcasts_S64x1x64_S64x64x64 (ix3 i j k)
        + Ideal.ofBits .f32 0x3727C5AC#32)) = _
  rw [bcast_row, num_apply, dist_ij_apply, dist_row_apply]
  rfl

/-- e^(−4·ssq)·fpr at (i, j, k). -/
theorem weight_apply (x0 x1 : Vec Ideal S1x64x64 .f32) (i j k : Fin 64) :
    k0_pay10 (k0_pay2 x0) (k0_pay5 x1) (k0_pay6 x1) (k0_pay7 x1) (ix3 i j k)
      = wK (fun i j => x1 (ix3 0 i j)) (fun i j => x0 (ix3 0 i j)) i j k := by
  unfold k0_pay10
  show Ideal.exp (Ideal.ofBits .f32 0xC0800000#32 *
        ((broadcastTo S64x64x64 (mulf (k0_pay5 x1) (k0_pay5 x1)) broadcasts_S64x64x1_S64x64x64 (ix3 i j k)
          + broadcastTo S64x64x64 (mulf (k0_pay6 x1) (k0_pay6 x1)) broadcasts_S64x1x64_S64x64x64 (ix3 i j k))
          + k0_pay7 x1 (ix3 i j k) * k0_pay7 x1 (ix3 i j k)))
      * (mulf (broadcastTo S64x64x64 (shapeCast S64x64x1 (k0_pay2 x0) shapeCasts_S64x64_S64x64x1) broadcasts_S64x64x1_S64x64x64)
            (broadcastTo S64x64x64 (shapeCast S64x1x64 (k0_pay2 x0) shapeCasts_S64x64_S64x1x64) broadcasts_S64x1x64_S64x64x64) (ix3 i j k)
          * broadcastTo S64x64x64 (shapeCast S1x64x64 (shapeCast S1x64x64 (k0_pay2 x0) shapeCasts_S64x64_S1x64x64) shapeCasts_S1x64x64_S1x64x64)
              broadcasts_S1x64x64_S64x64x64 (ix3 i j k)) = _
  rw [bcast_col, bcast_row, mulf_apply, mulf_apply, pair_prod, bcast_lead, shapeCast_self, shapeCast_ab_1ab_apply,
    dist_col_apply, dist_row_apply, dist_jk_apply]
  simp only [cutoff_apply]
  rfl

/-! ## A channel's column: a [64,64,64] table summed over its last two axes, then scaled -/

/-- The table T summed along k, then along j, laid as a [64,1] column and multiplied by the word s:
    at (i, 0) it is (Σ_j Σ_k T(i,j,k)) · s. -/
theorem column_apply (T : FVec Ideal S64x64x64 .f32) (s : BitVec 32) (i : Fin 64) (z : Fin 1) :
    mulf (shapeCast S64x1
          (multiReduction (F := Ideal) .add [1] S64
            (multiReduction (F := Ideal) .add [2] S64x64 T 0x00000000#32 reduces_S64x64x64_S64x64 (.inl rfl) rfl)
            0x00000000#32 reduces_S64x64_S64 (.inl rfl) rfl) shapeCasts_S64_S64x1)
        (broadcast S64x1 (Scalar.ofBits (F := Ideal) .f32 s)) (ix2 i z)
      = (∑ j : Fin 64, ∑ k : Fin 64, T (ix3 i j k)) * Ideal.ofBits .f32 s := by
  rw [mulf_apply, cast_vec_col, sum_rows]
  show _ * Ideal.ofBits .f32 s = _
  exact congrArg (· * Ideal.ofBits .f32 s) (Finset.sum_congr rfl fun j _ => sum_last T _ _ _ i j)

/-! ## The six channels' columns -/

/-- Channel 0: the squared base, sign +1, scale 0.5. -/
theorem ch0_apply (v1 : FVec Ideal S64x64 .f32) (v43 : FVec Ideal S64x64x64 .f32) (v44 : FVec Ideal S64x64x1 .f32)
    (v45 : FVec Ideal S64x1x64 .f32) (v48 v49 : FVec Ideal S64x64x64 .f32) (i : Fin 64) (z : Fin 1) :
    k0_pay11 v1 v43 v44 v45 v48 v49 (ix2 i z)
      = (∑ j : Fin 64, ∑ k : Fin 64, powK 0 (oneW + Ideal.ofBits .f32 (lamW 0) * k0_pay9 v43 v45 v49 (ix3 i j k))
            * k0_pay10 v1 v44 v45 v48 (ix3 i j k)) * Ideal.ofBits .f32 (sclW 0) := by
  unfold k0_pay11
  rw [column_apply]
  rfl

/-- Channel 1: the fourth power, sign +1, scale 0.125. -/
theorem ch1_apply (v1 : FVec Ideal S64x64 .f32) (v43 : FVec Ideal S64x64x64 .f32) (v44 : FVec Ideal S64x64x1 .f32)
    (v45 : FVec Ideal S64x1x64 .f32) (v48 v49 : FVec Ideal S64x64x64 .f32) (i : Fin 64) (z : Fin 1) :
    k0_pay14 (k0_pay12 v1 v43 v44 v45 v48 v49) (k0_pay13 (F := Ideal)) (ix2 i z)
      = (∑ j : Fin 64, ∑ k : Fin 64, powK 1 (oneW + Ideal.ofBits .f32 (lamW 1) * k0_pay9 v43 v45 v49 (ix3 i j k))
            * k0_pay10 v1 v44 v45 v48 (ix3 i j k)) * Ideal.ofBits .f32 (sclW 1) := by
  unfold k0_pay14 k0_pay12 k0_pay13
  rw [column_apply]
  rfl

/-- Channel 2: the eighth power, sign +1, scale 2⁻⁷. -/
theorem ch2_apply (v55 v75 : FVec Ideal S64x64x64 .f32) (i : Fin 64) (z : Fin 1) :
    k0_pay15 v55 v75 (ix2 i z)
      = (∑ j : Fin 64, ∑ k : Fin 64, powK 2 (oneW + Ideal.ofBits .f32 (lamW 2) * v55 (ix3 i j k)) * v75 (ix3 i j k))
          * Ideal.ofBits .f32 (sclW 2) := by
  unfold k0_pay15
  rw [column_apply]
  rfl

/-- Channel 3: the squared base, sign −1, scale 0.5. -/
theorem ch3_apply (v55 v75 : FVec Ideal S64x64x64 .f32) (i : Fin 64) (z : Fin 1) :
    k0_pay16 v55 v75 (ix2 i z)
      = (∑ j : Fin 64, ∑ k : Fin 64, powK 3 (oneW + Ideal.ofBits .f32 (lamW 3) * v55 (ix3 i j k)) * v75 (ix3 i j k))
          * Ideal.ofBits .f32 (sclW 3) := by
  unfold k0_pay16
  rw [column_apply]
  rfl

/-- Channel 4: the fourth power, sign −1, scale 0.125. -/
theorem ch4_apply (v55 v75 : FVec Ideal S64x64x64 .f32) (i : Fin 64) (z : Fin 1) :
    k0_pay17 v55 v75 (ix2 i z)
      = (∑ j : Fin 64, ∑ k : Fin 64, powK 4 (oneW + Ideal.ofBits .f32 (lamW 4) * v55 (ix3 i j k)) * v75 (ix3 i j k))
          * Ideal.ofBits .f32 (sclW 4) := by
  unfold k0_pay17
  rw [column_apply]
  rfl

/-- Channel 5's column, which the body computes last from the fourth power of the base (sign −1): the eighth power,
    scale 2⁻⁷. -/
def lastCol (v55 v75 : FVec Ideal S64x64x64 .f32) : FVec Ideal S64x1 .f32 :=
  mulf (shapeCast S64x1
      (multiReduction (F := Ideal) .add [1] S64
        (multiReduction (F := Ideal) .add [2] S64x64 (mulf (mulf (k0_pay18 v55) (k0_pay18 v55)) v75) 0x00000000#32
          reduces_S64x64x64_S64x64 (.inl rfl) rfl)
        0x00000000#32 reduces_S64x64_S64 (.inl rfl) rfl) shapeCasts_S64_S64x1)
    (broadcast S64x1 (Scalar.ofBits (F := Ideal) .f32 0x3C000000#32))

theorem ch5_apply (v55 v75 : FVec Ideal S64x64x64 .f32) (i : Fin 64) (z : Fin 1) :
    lastCol v55 v75 (ix2 i z)
      = (∑ j : Fin 64, ∑ k : Fin 64, powK 5 (oneW + Ideal.ofBits .f32 (lamW 5) * v55 (ix3 i j k)) * v75 (ix3 i j k))
          * Ideal.ofBits .f32 (sclW 5) := by
  unfold lastCol
  rw [column_apply]
  rfl

/-! ## The six columns side by side -/

/-- Six [64,1] columns concatenated along the second axis read, at (i, l), column l at (i, 0). -/
theorem cat6_apply {α : Type} (c : Fin 6 → (S64x1.Idx → α))
    (h : Shape.Concatenates [S64x1, S64x1, S64x1, S64x1, S64x1, S64x1] S64x6 1) (i : Fin 64) (l : Fin 6) :
    concatenate S64x6 1 [⟨S64x1, c 0⟩, ⟨S64x1, c 1⟩, ⟨S64x1, c 2⟩, ⟨S64x1, c 3⟩, ⟨S64x1, c 4⟩, ⟨S64x1, c 5⟩] h (ix2 i l)
      = c l (ix2 i (0 : Fin 1)) := by
  show concatenate S64x6 1 (List.ofFn fun n : Fin 6 => (⟨S64x1, c n⟩ : (s : Shape) × (s.Idx → α))) _ (ix2 i l) = _
  exact concatenate_ofFn_apply (t := S64x6) (s₁ := S64x1) (1 : Fin 2) c _ rfl 1 rfl (ix2 i l) l
    (by show l.val / 1 = l.val; omega) (ix2 i (0 : Fin 1)) (by show 0 = l.val % 1; omega)
    (fun b hb => by match b with | ⟨0, _⟩ => rfl | ⟨1, _⟩ => exact absurd rfl hb)

/-- The six columns of the body, by channel. -/
def cols (v75 : FVec Ideal S64x64x64 .f32) (v86 v98 v111 v122 v134 : FVec Ideal S64x1 .f32)
    (v55 : FVec Ideal S64x64x64 .f32) : Fin 6 → FVec Ideal S64x1 .f32 := fun
  | 0 => v86 | 1 => v98 | 2 => v111 | 3 => v122 | 4 => v134 | 5 => lastCol v55 v75

/-- What the body stores, at row i and channel l: channel l's column at (i, 0). -/
theorem stored_apply (v75 : FVec Ideal S64x64x64 .f32) (v86 v98 v111 v122 v134 : FVec Ideal S64x1 .f32)
    (v55 : FVec Ideal S64x64x64 .f32) (i : Fin 64) (l : Fin 6) :
    k0_pay1 v75 v86 v98 v111 v122 v134 (k0_pay18 v55) (ix3 0 i l)
      = cols v75 v86 v98 v111 v122 v134 v55 l (ix2 i (0 : Fin 1)) := by
  unfold k0_pay1
  rw [shapeCast_ab_1ab_apply]
  exact cat6_apply (cols v75 v86 v98 v111 v122 v134 v55) _ i l

/-! ## The block -/

theorem zero_offsets : (![0, 0, 0] : Fin 3 → Nat) = fun _ => 0 := funext fun a => by fin_cases a <;> rfl

/-- A channel's scaled double sum over the body's cosine and weight tables is the row formula. -/
theorem channel_eq (x0 x1 : Vec Ideal S1x64x64 .f32) (x2 : Vec Ideal S1x64x3 .f32) (i : Fin 64) (l : Fin 6) :
    (∑ j : Fin 64, ∑ k : Fin 64,
        powK l (oneW + Ideal.ofBits .f32 (lamW l) * k0_pay9 (k0_pay4 x2) (k0_pay6 x1) (k0_pay8 x1) (ix3 i j k))
          * k0_pay10 (k0_pay2 x0) (k0_pay5 x1) (k0_pay6 x1) (k0_pay7 x1) (ix3 i j k)) * Ideal.ofBits .f32 (sclW l)
      = outK (fun i a => x2 (ix3 0 i a)) (fun i j => x1 (ix3 0 i j)) (fun i j => x0 (ix3 0 i j)) i l := by
  simp only [cos_apply, weight_apply]
  rfl

/-- The output block of one grid point at row i, channel l, from the cutoff block x0, the distance block x1 and the
    coordinate block x2. -/
theorem block_eq (x0 x1 : Vec Ideal S1x64x64 .f32) (x2 : Vec Ideal S1x64x3 .f32) (i : Fin 64) (l : Fin 6) :
    out0_3 (F := Ideal) x0 x1 x2 (ix3 0 i l)
      = outK (fun i a => x2 (ix3 0 i a)) (fun i j => x1 (ix3 0 i j)) (fun i j => x0 (ix3 0 i j)) i l := by
  unfold out0_3
  rw [View.canon_unit_zero zero_offsets]
  simp only [View.ld_unit_zero (S := S1x64x64) zero_offsets, View.ld_unit_zero (S := S1x64x3) zero_offsets]
  rw [stored_apply]
  match l with
  | ⟨0, _⟩ => exact (ch0_apply _ _ _ _ _ _ i 0).trans (channel_eq x0 x1 x2 i 0)
  | ⟨1, _⟩ => exact (ch1_apply _ _ _ _ _ _ i 0).trans (channel_eq x0 x1 x2 i 1)
  | ⟨2, _⟩ => exact (ch2_apply _ _ i 0).trans (channel_eq x0 x1 x2 i 2)
  | ⟨3, _⟩ => exact (ch3_apply _ _ i 0).trans (channel_eq x0 x1 x2 i 3)
  | ⟨4, _⟩ => exact (ch4_apply _ _ i 0).trans (channel_eq x0 x1 x2 i 4)
  | ⟨5, _⟩ => exact (ch5_apply _ _ i 0).trans (channel_eq x0 x1 x2 i 5)

end Cert.KernelIdeal.KerBlock

end
-- ==== Proof.KerArray.lean ====
/-
  From blocks to the array: grid point t writes batch t of the result, so after the run the result array is GK of the
  argument arrays.
-/
import proofs.«112582_j68315749810414_1_alg».proof.Proof.Gen.KernelIdeal.Value
import proofs.«112582_j68315749810414_1_alg».proof.Proof.KerBlock
import proofs.«112582_j68315749810414_1_alg».proof.Proof.Spec

noncomputable section

namespace Cert.KernelIdeal.KerArray

open Cert.KernelIdeal Cert.KernelIdeal.Gen Idealize.ShloMosaic Idealize.ShloMosaic.TcCoe Idealize.SL.Sem Idealize.ShloMosaic.ValueIdx Cert.Angular

/-- The four index maps, decided over the sixteen grid points: every window's block at point t is batch t, at block
    offset zero on the two inner axes. -/
theorem index_batch : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

section Blocks

variable (m : (ℓ : Loc nD τ sig) → Buf (Elt Ideal) ℓ)

/-- The cutoff block of point t, entry (0, i, j), is the cutoff table at (b, i, j), b the batch of t. -/
theorem cutoff_block (c : Dev nD) (t : Fin cfg0.N) (b : Fin 16) (hb : b.val = t.val) (i j : Fin 64) :
    (iblk m c 0 t : Vec Ideal S1x64x64 .f32) (ix3 0 i j)
      = (m ((c : Thread nD τ).loc main_arg0) : S16x64x64.Idx → EReal) (ix3 b i j) := by
  obtain ⟨⟨e0, e1, e2⟩, -, -, -⟩ := index_batch t
  show V m c main_arg0 (((cfg0.win 0).blk t).view.emb (ix3 0 i j)) = V m c main_arg0 (ix3 b i j)
  congr 1
  funext a
  apply Fin.ext
  match a with
  | ⟨0, _⟩ => show win0_0.index t (0 : Fin 3) * 1 + 1 * 0 = b.val; omega
  | ⟨1, _⟩ => show win0_0.index t (1 : Fin 3) * 64 + 1 * i.val = i.val; omega
  | ⟨2, _⟩ => show win0_0.index t (2 : Fin 3) * 64 + 1 * j.val = j.val; omega

/-- The distance block of point t, entry (0, i, j), is the distance table at (b, i, j). -/
theorem distance_block (c : Dev nD) (t : Fin cfg0.N) (b : Fin 16) (hb : b.val = t.val) (i j : Fin 64) :
    (iblk m c 1 t : Vec Ideal S1x64x64 .f32) (ix3 0 i j)
      = (m ((c : Thread nD τ).loc main_arg1) : S16x64x64.Idx → EReal) (ix3 b i j) := by
  obtain ⟨-, ⟨e0, e1, e2⟩, -, -⟩ := index_batch t
  show V m c main_arg1 (((cfg0.win 1).blk t).view.emb (ix3 0 i j)) = V m c main_arg1 (ix3 b i j)
  congr 1
  funext a
  apply Fin.ext
  match a with
  | ⟨0, _⟩ => show win0_1.index t (0 : Fin 3) * 1 + 1 * 0 = b.val; omega
  | ⟨1, _⟩ => show win0_1.index t (1 : Fin 3) * 64 + 1 * i.val = i.val; omega
  | ⟨2, _⟩ => show win0_1.index t (2 : Fin 3) * 64 + 1 * j.val = j.val; omega

/-- The coordinate block of point t, entry (0, i, a), is the coordinate table at (b, i, a). -/
theorem coordinate_block (c : Dev nD) (t : Fin cfg0.N) (b : Fin 16) (hb : b.val = t.val) (i : Fin 64) (a : Fin 3) :
    (iblk m c 2 t : Vec Ideal S1x64x3 .f32) (ix3 0 i a)
      = (m ((c : Thread nD τ).loc main_arg2) : S16x64x3.Idx → EReal) (ix3 b i a) := by
  obtain ⟨-, -, ⟨e0, e1, e2⟩, -⟩ := index_batch t
  show V m c main_arg2 (((cfg0.win 2).blk t).view.emb (ix3 0 i a)) = V m c main_arg2 (ix3 b i a)
  congr 1
  funext d
  apply Fin.ext
  match d with
  | ⟨0, _⟩ => show win0_2.index t (0 : Fin 3) * 1 + 1 * 0 = b.val; omega
  | ⟨1, _⟩ => show win0_2.index t (1 : Fin 3) * 64 + 1 * i.val = i.val; omega
  | ⟨2, _⟩ => show win0_2.index t (2 : Fin 3) * 3 + 1 * a.val = a.val; omega

/-- Entry (0, i, l) of the output block sits at (b, i, l) of the result array. -/
theorem result_index (t : Fin cfg0.N) (b : Fin 16) (hb : b.val = t.val) (i : Fin 64) (l : Fin 6) :
    (((cfg0.win 3).blk t).view.emb (ix3 0 i l) : S16x64x6.Idx) = ix3 b i l := by
  obtain ⟨-, -, -, ⟨e0, e1, e2⟩⟩ := index_batch t
  funext d
  apply Fin.ext
  match d with
  | ⟨0, _⟩ => show win0_3.index t (0 : Fin 3) * 1 + 1 * 0 = b.val; omega
  | ⟨1, _⟩ => show win0_3.index t (1 : Fin 3) * 64 + 1 * i.val = i.val; omega
  | ⟨2, _⟩ => show win0_3.index t (2 : Fin 3) * 6 + 1 * l.val = l.val; omega

/-- What the body leaves at entry (0, i, l) of point t's output block is GK of the argument arrays at (b, i, l). -/
theorem block_entry (c : Dev nD) (t : Fin cfg0.N) (b : Fin 16) (hb : b.val = t.val) (i : Fin 64) (l : Fin 6) :
    out0_3 (F := Ideal) (iblk m c 0 t) (iblk m c 1 t) (iblk m c 2 t) (ix3 0 i l)
      = GK (m ((c : Thread nD τ).loc main_arg0)) (m ((c : Thread nD τ).loc main_arg1)) (m ((c : Thread nD τ).loc main_arg2)) (ix3 b i l) := by
  rw [KerBlock.block_eq, GK_ix3]
  have hX : (fun i a => (iblk m c 2 t : Vec Ideal S1x64x3 .f32) (ix3 0 i a)) = rowX (m ((c : Thread nD τ).loc main_arg2)) b :=
    funext fun i => funext fun a => coordinate_block m c t b hb i a
  have hD : (fun i j => (iblk m c 1 t : Vec Ideal S1x64x64 .f32) (ix3 0 i j)) = rowM (m ((c : Thread nD τ).loc main_arg1)) b :=
    funext fun i => funext fun j => distance_block m c t b hb i j
  have hC : (fun i j => (iblk m c 0 t : Vec Ideal S1x64x64 .f32) (ix3 0 i j)) = rowM (m ((c : Thread nD τ).loc main_arg0)) b :=
    funext fun i => funext fun j => cutoff_block m c t b hb i j
  rw [hX, hD, hC]

/-- What point t writes back is block t of GK of the argument arrays. -/
theorem flushed_eq (c : Dev nD) (t : Fin cfg0.N) :
    (dats m 0 c).flushed 3 t = ((cfg0.win 3).blk t).view.read (Elt Ideal)
      (GK (m ((c : Thread nD τ).loc main_arg0)) (m ((c : Thread nD τ).loc main_arg1)) (m ((c : Thread nD τ).loc main_arg2))) := by
  rw [Value.flushed3]
  obtain ⟨b, hb⟩ : ∃ b : Fin 16, b.val = t.val := ⟨⟨t.val, Nat.lt_of_lt_of_eq t.isLt N_0⟩, rfl⟩
  refine funext fun (y : S1x64x6.Idx) => ?_
  obtain ⟨i, hi⟩ : ∃ i : Fin 64, i.val = (y 1).val := ⟨⟨(y 1).val, (y 1).isLt⟩, rfl⟩
  obtain ⟨l, hl⟩ : ∃ l : Fin 6, l.val = (y 2).val := ⟨⟨(y 2).val, (y 2).isLt⟩, rfl⟩
  have e : y = ix3 (n0 := 1) (n1 := 64) (n2 := 6) 0 i l := by
    funext d
    match d with
    | ⟨0, _⟩ => exact Subsingleton.elim (α := Fin 1) _ _
    | ⟨1, _⟩ => exact Fin.ext hi.symm
    | ⟨2, _⟩ => exact Fin.ext hl.symm
  show out0_3 (F := Ideal) (iblk m c 0 t) (iblk m c 1 t) (iblk m c 2 t) y
    = GK (m ((c : Thread nD τ).loc main_arg0)) (m ((c : Thread nD τ).loc main_arg1)) (m ((c : Thread nD τ).loc main_arg2))
        (((cfg0.win 3).blk t).view.emb y)
  rw [e, result_index t b hb]
  exact block_entry m c t b hb i l

/-- An index of the result array is in point t's block iff each coordinate is in the block's range on its axis. -/
theorem mem_blk (t : Fin cfg0.N) (i : S16x64x6.Idx) :
    i ∈ ((cfg0.win 3).blk t).view.set ↔ ∀ a : Fin 3, win0_3.index t a * S1x64x6.size a ≤ (i a).val ∧ (i a).val < win0_3.index t a * S1x64x6.size a + S1x64x6.size a := by
  show i ∈ ((View.whole main_v0).slice (win0_3.rect t)).set ↔ _
  rw [View.set_slice_whole, Rect.mem_set_unit]
  exact Iff.rfl

/-- Every index of the result array is in the block of the point numbered by its batch. -/
theorem cover (i : S16x64x6.Idx) : ∃ t : Fin cfg0.N, (cfg0.win 3).flush t = true ∧ i ∈ ((cfg0.win 3).blk t).view.set := by
  have h0 : (i 0).val < 16 := (i 0).isLt
  have h1 : (i 1).val < 64 := (i 1).isLt
  have h2 : (i 2).val < 6 := (i 2).isLt
  obtain ⟨t, ht⟩ : ∃ t : Fin cfg0.N, t.val = (i 0).val := ⟨⟨(i 0).val, by rw [show cfg0.N = 16 from N_0]; exact h0⟩, rfl⟩
  refine ⟨t, flush0_3 t, ?_⟩
  rw [mem_blk]
  obtain ⟨-, -, -, ⟨e0, e1, e2⟩⟩ := index_batch t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 6 ≤ (i 2).val ∧ (i 2).val < win0_3.index t (2 : Fin 3) * 6 + 6; omega

/-- The result array after the run is GK of the argument arrays. -/
theorem final (c : Dev nD) : (dats m 0 c).arrAt 3 cfg0.N
    = GK (m ((c : Thread nD τ).loc main_arg0)) (m ((c : Thread nD τ).loc main_arg1)) (m ((c : Thread nD τ).loc main_arg2)) :=
  (dats m 0 c).arrAt_eq_of_cover 3 _ (fun t _ => flushed_eq m c t) cover

end Blocks

/-- Every weakly fair execution of the idealized kernel's program ends with the result array at GK of the argument
    arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0)
          = GK (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KerArray

end
-- ==== Proof.RefRun.lean ====
/-
  The reference program's run: its operations in order, and the result buffer after them as one pure term of the
  three argument arrays.
-/
import proofs.«112582_j68315749810414_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The reference's result as a pure term of its arguments

One binding per operation of the printed program, in program order and under the printed names (v0 … v60, cst,
cst_0 … cst_6), grouped into stages that follow the mathematics; a stage names an earlier stage's last binding by the
stage's name. -/

/-- The displacement table: entry (b,i,j,a) is coordinate a of atom i minus that of atom j. -/
def disp (a2 : FVec F S16x64x3 .f32) : FVec F S16x64x64x3 .f32 :=
  let v0 : FVec F S16x64x1x3 .f32 := broadcastInDim S16x64x1x3 ![0, 1, 3] bcast_S16x64x3_S16x64x1x3_0_1_3 a2
  let v1 : FVec F S16x1x64x3 .f32 := broadcastInDim S16x1x64x3 ![0, 2, 3] bcast_S16x64x3_S16x1x64x3_0_2_3 a2
  let v2 : FVec F S16x64x64x3 .f32 := broadcastInDim S16x64x64x3 ![0, 1, 2, 3] bcast_S16x64x1x3_S16x64x64x3_0_1_2_3 v0
  let v3 : FVec F S16x64x64x3 .f32 := broadcastInDim S16x64x64x3 ![0, 1, 2, 3] bcast_S16x1x64x3_S16x64x64x3_0_1_2_3 v1
  let v4 : FVec F S16x64x64x3 .f32 := subf v2 v3
  v4

/-- The distance table read at (b,i,j), as a [16,64,64,1] array. -/
def dIJ (a1 : FVec F S16x64x64 .f32) : FVec F S16x64x64x1 .f32 :=
  broadcastInDim S16x64x64x1 ![0, 1, 2] bcast_S16x64x64_S16x64x64x1_0_1_2 a1

/-- The distance table read at (b,i,k), as a [16,64,1,64] array. -/
def dIK (a1 : FVec F S16x64x64 .f32) : FVec F S16x64x1x64 .f32 :=
  broadcastInDim S16x64x1x64 ![0, 1, 3] bcast_S16x64x64_S16x64x1x64_0_1_3 a1

/-- The distance table read at (j,k), as a [16,1,64,64] array. -/
def dJK (a1 : FVec F S16x64x64 .f32) : FVec F S16x1x64x64 .f32 :=
  broadcastInDim S16x1x64x64 ![0, 2, 3] bcast_S16x64x64_S16x1x64x64_0_2_3 a1

/-- The numerator: the inner product over the coordinate axis of the displacements (i,j) and (i,k). -/
def dotT (a2 : FVec F S16x64x3 .f32) : FVec F S16x64x64x64 .f32 :=
  Host.dotGeneral dot_S16x64x64x3_S16x64x64x3_S16x64x64x64_3_3_2_2_01_01 none (disp a2) (disp a2)

/-- The denominator: d(i,j) · d(i,k) plus the small constant. -/
def denT (a1 : FVec F S16x64x64 .f32) : FVec F S16x64x64x64 .f32 :=
  let v9 : FVec F S16x64x64x64 .f32 := broadcastInDim S16x64x64x64 ![0, 1, 2, 3] bcast_S16x64x64x1_S16x64x64x64_0_1_2_3 (dIJ a1)
  let v10 : FVec F S16x64x64x64 .f32 := broadcastInDim S16x64x64x64 ![0, 1, 2, 3] bcast_S16x64x1x64_S16x64x64x64_0_1_2_3 (dIK a1)
  let v11 : FVec F S16x64x64x64 .f32 := mulf v9 v10
  let cst_2 : FVec F S_ .f32 := constant S_ .f32 0x3727C5AC#32
  let v12 : FVec F S16x64x64x64 .f32 := broadcastInDim S16x64x64x64 ![] bcast_S_S16x64x64x64 cst_2
  let v13 : FVec F S16x64x64x64 .f32 := addf v11 v12
  v13

/-- The quotient whose cosine is taken. -/
def thetaT (a1 : FVec F S16x64x64 .f32) (a2 : FVec F S16x64x3 .f32) : FVec F S16x64x64x64 .f32 :=
  Host.divf (dotT a2) (denT a1)

/-- The sum of the three squared distances of a triple. -/
def ssqT (a1 : FVec F S16x64x64 .f32) : FVec F S16x64x64x64 .f32 :=
  let v15 : FVec F S16x64x64x1 .f32 := mulf (dIJ a1) (dIJ a1)
  let v16 : FVec F S16x64x1x64 .f32 := mulf (dIK a1) (dIK a1)
  let v17 : FVec F S16x64x64x64 .f32 := broadcastInDim S16x64x64x64 ![0, 1, 2, 3] bcast_S16x64x64x1_S16x64x64x64_0_1_2_3 v15
  let v18 : FVec F S16x64x64x64 .f32 := broadcastInDim S16x64x64x64 ![0, 1, 2, 3] bcast_S16x64x1x64_S16x64x64x64_0_1_2_3 v16
  let v19 : FVec F S16x64x64x64 .f32 := addf v17 v18
  let v20 : FVec F S16x1x64x64 .f32 := mulf (dJK a1) (dJK a1)
  let v21 : FVec F S16x64x64x64 .f32 := broadcastInDim S16x64x64x64 ![0, 1, 2, 3] bcast_S16x1x64x64_S16x64x64x64_0_1_2_3 v20
  let v22 : FVec F S16x64x64x64 .f32 := addf v19 v21
  v22

/-- The product of the three cutoff values of a triple. -/
def fprT (a0 : FVec F S16x64x64 .f32) : FVec F S16x64x64x64 .f32 :=
  let v23 : FVec F S16x64x64x1 .f32 := broadcastInDim S16x64x64x1 ![0, 1, 2] bcast_S16x64x64_S16x64x64x1_0_1_2 a0
  let v24 : FVec F S16x64x1x64 .f32 := broadcastInDim S16x64x1x64 ![0, 1, 3] bcast_S16x64x64_S16x64x1x64_0_1_3 a0
  let v25 : FVec F S16x64x64x64 .f32 := broadcastInDim S16x64x64x64 ![0, 1, 2, 3] bcast_S16x64x64x1_S16x64x64x64_0_1_2_3 v23
  let v26 : FVec F S16x64x64x64 .f32 := broadcastInDim S16x64x64x64 ![0, 1, 2, 3] bcast_S16x64x1x64_S16x64x64x64_0_1_2_3 v24
  let v27 : FVec F S16x64x64x64 .f32 := mulf v25 v26
  let v28 : FVec F S16x1x64x64 .f32 := broadcastInDim S16x1x64x64 ![0, 2, 3] bcast_S16x64x64_S16x1x64x64_0_2_3 a0
  let v29 : FVec F S16x64x64x64 .f32 := broadcastInDim S16x64x64x64 ![0, 1, 2, 3] bcast_S16x1x64x64_S16x64x64x64_0_1_2_3 v28
  let v30 : FVec F S16x64x64x64 .f32 := mulf v27 v29
  v30

/-- The cosine, broadcast along the axis of the six channels. -/
def cosT5 (a1 : FVec F S16x64x64 .f32) (a2 : FVec F S16x64x3 .f32) : FVec F S16x64x64x64x6 .f32 :=
  let v34 : FVec F S16x64x64x64 .f32 := Host.cos (thetaT a1 a2)
  let v35 : FVec F S16x64x64x64x1 .f32 := broadcastInDim S16x64x64x64x1 ![0, 1, 2, 3] bcast_S16x64x64x64_S16x64x64x64x1_0_1_2_3 v34
  let v37 : FVec F S16x64x64x64x6 .f32 := broadcastInDim S16x64x64x64x6 ![0, 1, 2, 3, 4] bcast_S16x64x64x64x1_S16x64x64x64x6_0_1_2_3_4 v35
  v37

/-- One plus the channel's sign times the cosine. -/
def baseT (a1 : FVec F S16x64x64 .f32) (a2 : FVec F S16x64x3 .f32) : FVec F S16x64x64x64x6 .f32 :=
  let cst : FVec F S6 .f32 := fun i => FloatOps.ofBits .f32 (lit0 (S6.rowMajor i))
  let v31 : FVec F S1x1x1x1x6 .f32 := shapeCast S1x1x1x1x6 cst shapeCasts_S6_S1x1x1x1x6
  let v36 : FVec F S16x64x64x64x6 .f32 := broadcastInDim S16x64x64x64x6 ![0, 1, 2, 3, 4] bcast_S1x1x1x1x6_S16x64x64x64x6_0_1_2_3_4 v31
  let v38 : FVec F S16x64x64x64x6 .f32 := mulf v36 (cosT5 a1 a2)
  let cst_3 : FVec F S_ .f32 := constant S_ .f32 0x3F800000#32
  let v39 : FVec F S16x64x64x64x6 .f32 := broadcastInDim S16x64x64x64x6 ![] bcast_S_S16x64x64x64x6 cst_3
  let v40 : FVec F S16x64x64x64x6 .f32 := addf v39 v38
  v40

/-- The base raised to the channel's exponent. -/
def powT (a1 : FVec F S16x64x64 .f32) (a2 : FVec F S16x64x3 .f32) : FVec F S16x64x64x64x6 .f32 :=
  let cst_1 : FVec F S6 .f32 := fun i => FloatOps.ofBits .f32 (lit1 (S6.rowMajor i))
  let v33 : FVec F S1x1x1x1x6 .f32 := shapeCast S1x1x1x1x6 cst_1 shapeCasts_S6_S1x1x1x1x6
  let v41 : FVec F S16x64x64x64x6 .f32 := broadcastInDim S16x64x64x64x6 ![0, 1, 2, 3, 4] bcast_S1x1x1x1x6_S16x64x64x64x6_0_1_2_3_4 v33
  let v42 : FVec F S16x64x64x64x6 .f32 := Host.powf (baseT a1 a2) v41
  v42

/-- The exponential of minus four times the sum of squared distances. -/
def expT (a1 : FVec F S16x64x64 .f32) : FVec F S16x64x64x64x6 .f32 :=
  let cst_0 : FVec F S6 .f32 := constant S6 .f32 0x40800000#32
  let v32 : FVec F S1x1x1x1x6 .f32 := shapeCast S1x1x1x1x6 cst_0 shapeCasts_S6_S1x1x1x1x6
  let v43 : FVec F S1x1x1x1x6 .f32 := Host.negf v32
  let v44 : FVec F S16x64x64x64x1 .f32 := broadcastInDim S16x64x64x64x1 ![0, 1, 2, 3] bcast_S16x64x64x64_S16x64x64x64x1_0_1_2_3 (ssqT a1)
  let v45 : FVec F S16x64x64x64x6 .f32 := broadcastInDim S16x64x64x64x6 ![0, 1, 2, 3, 4] bcast_S1x1x1x1x6_S16x64x64x64x6_0_1_2_3_4 v43
  let v46 : FVec F S16x64x64x64x6 .f32 := broadcastInDim S16x64x64x64x6 ![0, 1, 2, 3, 4] bcast_S16x64x64x64x1_S16x64x64x64x6_0_1_2_3_4 v44
  let v47 : FVec F S16x64x64x64x6 .f32 := mulf v45 v46
  let v48 : FVec F S16x64x64x64x6 .f32 := Host.exp v47
  v48

/-- The summand: power times exponential times cutoff product. -/
def prodT (a0 : FVec F S16x64x64 .f32) (a1 : FVec F S16x64x64 .f32) (a2 : FVec F S16x64x3 .f32) : FVec F S16x64x64x64x6 .f32 :=
  let v49 : FVec F S16x64x64x64x6 .f32 := mulf (powT a1 a2) (expT a1)
  let v50 : FVec F S16x64x64x64x1 .f32 := broadcastInDim S16x64x64x64x1 ![0, 1, 2, 3] bcast_S16x64x64x64_S16x64x64x64x1_0_1_2_3 (fprT a0)
  let v51 : FVec F S16x64x64x64x6 .f32 := broadcastInDim S16x64x64x64x6 ![0, 1, 2, 3, 4] bcast_S16x64x64x64x1_S16x64x64x64x6_0_1_2_3_4 v50
  let v52 : FVec F S16x64x64x64x6 .f32 := mulf v49 v51
  v52

/-- The sum of the summands over the two neighbour axes, from zero. -/
def sumT (a0 : FVec F S16x64x64 .f32) (a1 : FVec F S16x64x64 .f32) (a2 : FVec F S16x64x3 .f32) : FVec F S16x64x6 .f32 :=
  let cst_4 : FVec F S_ .f32 := constant S_ .f32 0x00000000#32
  let v53 : FVec F S16x64x6 .f32 := Host.reduceAdd (prodT a0 a1 a2) cst_4 reducesTo_S16x64x64x64x6_S16x64x6_d2_3 h_S_
  v53

/-- The channel's scale, two to the power one minus the exponent, broadcast to the result's shape. -/
def sclT : FVec F S16x64x6 .f32 :=
  let cst_1 : FVec F S6 .f32 := fun i => FloatOps.ofBits .f32 (lit1 (S6.rowMajor i))
  let v54 : FVec F S1x1x6 .f32 := shapeCast S1x1x6 cst_1 shapeCasts_S6_S1x1x6
  let cst_5 : FVec F S_ .f32 := constant S_ .f32 0x3F800000#32
  let v55 : FVec F S1x1x6 .f32 := broadcastInDim S1x1x6 ![] bcast_S_S1x1x6 cst_5
  let v56 : FVec F S1x1x6 .f32 := subf v55 v54
  let cst_6 : FVec F S_ .f32 := constant S_ .f32 0x40000000#32
  let v57 : FVec F S1x1x6 .f32 := broadcastInDim S1x1x6 ![] bcast_S_S1x1x6 cst_6
  let v58 : FVec F S1x1x6 .f32 := Host.powf v57 v56
  let v59 : FVec F S16x64x6 .f32 := broadcastInDim S16x64x6 ![0, 1, 2] bcast_S1x1x6_S16x64x6_0_1_2 v58
  v59

/-- The reference's result as a pure term of its arguments: the sum over the neighbour pairs times the channel's scale
    (binding v60). -/
def refTerm (a0 a1 : FVec F S16x64x64 .f32) (a2 : FVec F S16x64x3 .f32) : FVec F S16x64x6 .f32 :=
  mulf (sumT a0 a1 a2) sclT

/-! ## The program as a list of operations -/

/-- @main's operations 1 … 60 (its first window). -/
abbrev ops_part0 : List (HloOp τ sig (Elt F)) :=
  [ StableHlo.nullary main_cst (fun i => FloatOps.ofBits .f32 (lit0 (S6.rowMajor i))),
    StableHlo.nullary main_cst_0 (constant S6 .f32 0x40800000#32),
    StableHlo.nullary main_cst_1 (fun i => FloatOps.ofBits .f32 (lit1 (S6.rowMajor i))),
    StableHlo.unary main_arg2 main_v0 (broadcastInDim S16x64x1x3 ![0, 1, 3] bcast_S16x64x3_S16x64x1x3_0_1_3 : (⟨S16x64x3, .f32⟩ : BufTy).Contents (Elt F) → (⟨S16x64x1x3, .f32⟩ : BufTy).Contents (Elt F)),
    StableHlo.unary main_arg2 main_v1 (broadcastInDim S16x1x64x3 ![0, 2, 3] bcast_S16x64x3_S16x1x64x3_0_2_3 : (⟨S16x64x3, .f32⟩ : BufTy).Contents (Elt F) → (⟨S16x1x64x3, .f32⟩ : BufTy).Contents (Elt F)),
    StableHlo.unary main_v0 main_v2 (broadcastInDim S16x64x64x3 ![0, 1, 2, 3] bcast_S16x64x1x3_S16x64x64x3_0_1_2_3 : (⟨S16x64x1x3, .f32⟩ : BufTy).Contents (Elt F) → (⟨S16x64x64x3, .f32⟩ : BufTy).Contents (Elt F)),
    StableHlo.unary main_v1 main_v3 (broadcastInDim S16x64x64x3 ![0, 1, 2, 3] bcast_S16x1x64x3_S16x64x64x3_0_1_2_3 : (⟨S16x1x64x3, .f32⟩ : BufTy).Contents (Elt F) → (⟨S16x64x64x3, .f32⟩ : BufTy).Contents (Elt F)),
    StableHlo.binary main_v2 main_v3 main_v4 (subf : (⟨S16x64x64x3, .f32⟩ : BufTy).Contents (Elt F) → (⟨S16x64x64x3, .f32⟩ : BufTy).Contents (Elt F) → (⟨S16x64x64x3, .f32⟩ : BufTy).Contents (Elt F)),
    StableHlo.unary main_arg1 main_v5 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    StableHlo.unary main_arg1 main_v6 (broadcastInDim S16x64x1x64 ![0, 1, 3] bcast_S16x64x64_S16x64x1x64_0_1_3 : (⟨S16x64x64, .f32⟩ : BufTy).Contents (Elt F) → (⟨S16x64x1x64, .f32⟩ : BufTy).Contents (Elt F)),
    StableHlo.unary main_arg1 main_v7 (broadcastInDim S16x1x64x64 ![0, 2, 3] bcast_S16x64x64_S16x1x64x64_0_2_3 : (⟨S16x64x64, .f32⟩ : BufTy).Contents (Elt F) → (⟨S16x1x64x64, .f32⟩ : BufTy).Contents (Elt F)),
    StableHlo.binary main_v4 main_v4 main_v8 ((fun l r => Host.dotGeneral dot_S16x64x64x3_S16x64x64x3_S16x64x64x64_3_3_2_2_01_01 none l r) : (⟨S16x64x64x3, .f32⟩ : BufTy).Contents (Elt F) → (⟨S16x64x64x3, .f32⟩ : BufTy).Contents (Elt F) → (⟨S16x64x64x64, .f32⟩ : BufTy).Contents (Elt F)),
    StableHlo.unary main_v5 main_v9 (broadcastInDim S16x64x64x64 ![0, 1, 2, 3] bcast_S16x64x64x1_S16x64x64x64_0_1_2_3 : (⟨S16x64x64x1, .f32⟩ : BufTy).Contents (Elt F) → (⟨S16x64x64x64, .f32⟩ : BufTy).Contents (Elt F)),
    StableHlo.unary main_v6 main_v10 (broadcastInDim S16x64x64x64 ![0, 1, 2, 3] bcast_S16x64x1x64_S16x64x64x64_0_1_2_3 : (⟨S16x64x1x64, .f32⟩ : BufTy).Contents (Elt F) → (⟨S16x64x64x64, .f32⟩ : BufTy).Contents (Elt F)),
    StableHlo.binary main_v9 main_v10 main_v11 (mulf : (⟨S16x64x64x64, .f32⟩ : BufTy).Contents (Elt F) → (⟨S16x64x64x64, .f32⟩ : BufTy).Contents (Elt F) → (⟨S16x64x64x64, .f32⟩ : BufTy).Contents (Elt F)),
    StableHlo.nullary main_cst_2 (constant S_ .f32 0x3727C5AC#32),
    StableHlo.unary main_cst_2 main_v12 (broadcastInDim S16x64x64x64 ![] bcast_S_S16x64x64x64 : (⟨S_, .f32⟩ : BufTy).Contents (Elt F) → (⟨S16x64x64x64, .f32⟩ : BufTy).Contents (Elt F)),
    StableHlo.binary main_v11 main_v12 main_v13 (addf : (⟨S16x64x64x64, .f32⟩ : BufTy).Contents (Elt F) → (⟨S16x64x64x64, .f32⟩ : BufTy).Contents (Elt F) → (⟨S16x64x64x64, .f32⟩ : BufTy).Contents (Elt F)),
    StableHlo.binary main_v8 main_v13 main_v14 (Host.divf : (⟨S16x64x64x64, .f32⟩ : BufTy).Contents (Elt F) → (⟨S16x64x64x64, .f32⟩ : BufTy).Contents (Elt F) → (⟨S16x64x64x64, .f32⟩ : BufTy).Contents (Elt F)),
    StableHlo.binary main_v5 main_v5 main_v15 (mulf : (⟨S16x64x64x1, .f32⟩ : BufTy).Contents (Elt F) → (⟨S16x64x64x1, .f32⟩ : BufTy).Contents (Elt F) → (⟨S16x64x64x1, .f32⟩ : BufTy).Contents (Elt F)),
    StableHlo.binary main_v6 main_v6 main_v16 (mulf : (⟨S16x64x1x64, .f32⟩ : BufTy).Contents (Elt F) → (⟨S16x64x1x64, .f32⟩ : BufTy).Contents (Elt F) → (⟨S16x64x1x64, .f32⟩ : BufTy).Contents (Elt F)),
    StableHlo.unary main_v15 main_v17 (broadcastInDim S16x64x64x64 ![0, 1, 2, 3] bcast_S16x64x64x1_S16x64x64x64_0_1_2_3 : (⟨S16x64x64x1, .f32⟩ : BufTy).Contents (Elt F) → (⟨S16x64x64x64, .f32⟩ : BufTy).Contents (Elt F)),
    StableHlo.unary main_v16 main_v18 (broadcastInDim S16x64x64x64 ![0, 1, 2, 3] bcast_S16x64x1x64_S16x64x64x64_0_1_2_3 : (⟨S16x64x1x64, .f32⟩ : BufTy).Contents (Elt F) → (⟨S16x64x64x64, .f32⟩ : BufTy).Contents (Elt F)),
    StableHlo.binary main_v17 main_v18 main_v19 (addf : (⟨S16x64x64x64, .f32⟩ : BufTy).Contents (Elt F) → (⟨S16x64x64x64, .f32⟩ : BufTy).Contents (Elt F) → (⟨S16x64x64x64, .f32⟩ : BufTy).Contents (Elt F)),
    StableHlo.binary main_v7 main_v7 main_v20 (mulf : (⟨S16x1x64x64, .f32⟩ : BufTy).Contents (Elt F) → (⟨S16x1x64x64, .f32⟩ : BufTy).Contents (Elt F) → (⟨S16x1x64x64, .f32⟩ : BufTy).Contents (Elt F)),
    StableHlo.unary main_v20 main_v21 (broadcastInDim S16x64x64x64 ![0, 1, 2, 3] bcast_S16x1x64x64_S16x64x64x64_0_1_2_3 : (⟨S16x1x64x64, .f32⟩ : BufTy).Contents (Elt F) → (⟨S16x64x64x64, .f32⟩ : BufTy).Contents (Elt F)),
    StableHlo.binary main_v19 main_v21 main_v22 (addf : (⟨S16x64x64x64, .f32⟩ : BufTy).Contents (Elt F) → (⟨S16x64x64x64, .f32⟩ : BufTy).Contents (Elt F) → (⟨S16x64x64x64, .f32⟩ : BufTy).Contents (Elt F)),
    StableHlo.unary main_arg0 main_v23 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    StableHlo.unary main_arg0 main_v24 (broadcastInDim S16x64x1x64 ![0, 1, 3] bcast_S16x64x64_S16x64x1x64_0_1_3 : (⟨S16x64x64, .f32⟩ : BufTy).Contents (Elt F) → (⟨S16x64x1x64, .f32⟩ : BufTy).Contents (Elt F)),
    StableHlo.unary main_v23 main_v25 (broadcastInDim S16x64x64x64 ![0, 1, 2, 3] bcast_S16x64x64x1_S16x64x64x64_0_1_2_3 : (⟨S16x64x64x1, .f32⟩ : BufTy).Contents (Elt F) → (⟨S16x64x64x64, .f32⟩ : BufTy).Contents (Elt F)),
    StableHlo.unary main_v24 main_v26 (broadcastInDim S16x64x64x64 ![0, 1, 2, 3] bcast_S16x64x1x64_S16x64x64x64_0_1_2_3 : (⟨S16x64x1x64, .f32⟩ : BufTy).Contents (Elt F) → (⟨S16x64x64x64, .f32⟩ : BufTy).Contents (Elt F)),
    StableHlo.binary main_v25 main_v26 main_v27 (mulf : (⟨S16x64x64x64, .f32⟩ : BufTy).Contents (Elt F) → (⟨S16x64x64x64, .f32⟩ : BufTy).Contents (Elt F) → (⟨S16x64x64x64, .f32⟩ : BufTy).Contents (Elt F)),
    StableHlo.unary main_arg0 main_v28 (broadcastInDim S16x1x64x64 ![0, 2, 3] bcast_S16x64x64_S16x1x64x64_0_2_3 : (⟨S16x64x64, .f32⟩ : BufTy).Contents (Elt F) → (⟨S16x1x64x64, .f32⟩ : BufTy).Contents (Elt F)),
    StableHlo.unary main_v28 main_v29 (broadcastInDim S16x64x64x64 ![0, 1, 2, 3] bcast_S16x1x64x64_S16x64x64x64_0_1_2_3 : (⟨S16x1x64x64, .f32⟩ : BufTy).Contents (Elt F) → (⟨S16x64x64x64, .f32⟩ : BufTy).Contents (Elt F)),
    StableHlo.binary main_v27 main_v29 main_v30 (mulf : (⟨S16x64x64x64, .f32⟩ : BufTy).Contents (Elt F) → (⟨S16x64x64x64, .f32⟩ : BufTy).Contents (Elt F) → (⟨S16x64x64x64, .f32⟩ : BufTy).Contents (Elt F)),
    StableHlo.reshape main_cst main_v31 rfl shapeCasts_S6_S1x1x1x1x6,
    StableHlo.reshape main_cst_0 main_v32 rfl shapeCasts_S6_S1x1x1x1x6,
    StableHlo.reshape main_cst_1 main_v33 rfl shapeCasts_S6_S1x1x1x1x6,
    StableHlo.unary main_v14 main_v34 (Host.cos : (⟨S16x64x64x64, .f32⟩ : BufTy).Contents (Elt F) → (⟨S16x64x64x64, .f32⟩ : BufTy).Contents (Elt F)),
    StableHlo.unary main_v34 main_v35 (broadcastInDim S16x64x64x64x1 ![0, 1, 2, 3] bcast_S16x64x64x64_S16x64x64x64x1_0_1_2_3 : (⟨S16x64x64x64, .f32⟩ : BufTy).Contents (Elt F) → (⟨S16x64x64x64x1, .f32⟩ : BufTy).Contents (Elt F)),
    StableHlo.unary main_v31 main_v36 (broadcastInDim S16x64x64x64x6 ![0, 1, 2, 3, 4] bcast_S1x1x1x1x6_S16x64x64x64x6_0_1_2_3_4 : (⟨S1x1x1x1x6, .f32⟩ : BufTy).Contents (Elt F) → (⟨S16x64x64x64x6, .f32⟩ : BufTy).Contents (Elt F)),
    StableHlo.unary main_v35 main_v37 (broadcastInDim S16x64x64x64x6 ![0, 1, 2, 3, 4] bcast_S16x64x64x64x1_S16x64x64x64x6_0_1_2_3_4 : (⟨S16x64x64x64x1, .f32⟩ : BufTy).Contents (Elt F) → (⟨S16x64x64x64x6, .f32⟩ : BufTy).Contents (Elt F)),
    StableHlo.binary main_v36 main_v37 main_v38 (mulf : (⟨S16x64x64x64x6, .f32⟩ : BufTy).Contents (Elt F) → (⟨S16x64x64x64x6, .f32⟩ : BufTy).Contents (Elt F) → (⟨S16x64x64x64x6, .f32⟩ : BufTy).Contents (Elt F)),
    StableHlo.nullary main_cst_3 (constant S_ .f32 0x3F800000#32),
    StableHlo.unary main_cst_3 main_v39 (broadcastInDim S16x64x64x64x6 ![] bcast_S_S16x64x64x64x6 : (⟨S_, .f32⟩ : BufTy).Contents (Elt F) → (⟨S16x64x64x64x6, .f32⟩ : BufTy).Contents (Elt F)),
    StableHlo.binary main_v39 main_v38 main_v40 (addf : (⟨S16x64x64x64x6, .f32⟩ : BufTy).Contents (Elt F) → (⟨S16x64x64x64x6, .f32⟩ : BufTy).Contents (Elt F) → (⟨S16x64x64x64x6, .f32⟩ : BufTy).Contents (Elt F)),
    StableHlo.unary main_v33 main_v41 (broadcastInDim S16x64x64x64x6 ![0, 1, 2, 3, 4] bcast_S1x1x1x1x6_S16x64x64x64x6_0_1_2_3_4 : (⟨S1x1x1x1x6, .f32⟩ : BufTy).Contents (Elt F) → (⟨S16x64x64x64x6, .f32⟩ : BufTy).Contents (Elt F)),
    StableHlo.binary main_v40 main_v41 main_v42 (Host.powf : (⟨S16x64x64x64x6, .f32⟩ : BufTy).Contents (Elt F) → (⟨S16x64x64x64x6, .f32⟩ : BufTy).Contents (Elt F) → (⟨S16x64x64x64x6, .f32⟩ : BufTy).Contents (Elt F)),
    StableHlo.unary main_v32 main_v43 (Host.negf : (⟨S1x1x1x1x6, .f32⟩ : BufTy).Contents (Elt F) → (⟨S1x1x1x1x6, .f32⟩ : BufTy).Contents (Elt F)),
    StableHlo.unary main_v22 main_v44 (broadcastInDim S16x64x64x64x1 ![0, 1, 2, 3] bcast_S16x64x64x64_S16x64x64x64x1_0_1_2_3 : (⟨S16x64x64x64, .f32⟩ : BufTy).Contents (Elt F) → (⟨S16x64x64x64x1, .f32⟩ : BufTy).Contents (Elt F)),
    StableHlo.unary main_v43 main_v45 (broadcastInDim S16x64x64x64x6 ![0, 1, 2, 3, 4] bcast_S1x1x1x1x6_S16x64x64x64x6_0_1_2_3_4 : (⟨S1x1x1x1x6, .f32⟩ : BufTy).Contents (Elt F) → (⟨S16x64x64x64x6, .f32⟩ : BufTy).Contents (Elt F)),
    StableHlo.unary main_v44 main_v46 (broadcastInDim S16x64x64x64x6 ![0, 1, 2, 3, 4] bcast_S16x64x64x64x1_S16x64x64x64x6_0_1_2_3_4 : (⟨S16x64x64x64x1, .f32⟩ : BufTy).Contents (Elt F) → (⟨S16x64x64x64x6, .f32⟩ : BufTy).Contents (Elt F)),
    StableHlo.binary main_v45 main_v46 main_v47 (mulf : (⟨S16x64x64x64x6, .f32⟩ : BufTy).Contents (Elt F) → (⟨S16x64x64x64x6, .f32⟩ : BufTy).Contents (Elt F) → (⟨S16x64x64x64x6, .f32⟩ : BufTy).Contents (Elt F)),
    StableHlo.unary main_v47 main_v48 (Host.exp : (⟨S16x64x64x64x6, .f32⟩ : BufTy).Contents (Elt F) → (⟨S16x64x64x64x6, .f32⟩ : BufTy).Contents (Elt F)),
    StableHlo.binary main_v42 main_v48 main_v49 (mulf : (⟨S16x64x64x64x6, .f32⟩ : BufTy).Contents (Elt F) → (⟨S16x64x64x64x6, .f32⟩ : BufTy).Contents (Elt F) → (⟨S16x64x64x64x6, .f32⟩ : BufTy).Contents (Elt F)),
    StableHlo.unary main_v30 main_v50 (broadcastInDim S16x64x64x64x1 ![0, 1, 2, 3] bcast_S16x64x64x64_S16x64x64x64x1_0_1_2_3 : (⟨S16x64x64x64, .f32⟩ : BufTy).Contents (Elt F) → (⟨S16x64x64x64x1, .f32⟩ : BufTy).Contents (Elt F)),
    StableHlo.unary main_v50 main_v51 (broadcastInDim S16x64x64x64x6 ![0, 1, 2, 3, 4] bcast_S16x64x64x64x1_S16x64x64x64x6_0_1_2_3_4 : (⟨S16x64x64x64x1, .f32⟩ : BufTy).Contents (Elt F) → (⟨S16x64x64x64x6, .f32⟩ : BufTy).Contents (Elt F)),
    StableHlo.binary main_v49 main_v51 main_v52 (mulf : (⟨S16x64x64x64x6, .f32⟩ : BufTy).Contents (Elt F) → (⟨S16x64x64x64x6, .f32⟩ : BufTy).Contents (Elt F) → (⟨S16x64x64x64x6, .f32⟩ : BufTy).Contents (Elt F)),
    StableHlo.nullary main_cst_4 (constant S_ .f32 0x00000000#32),
    StableHlo.binary main_v52 main_cst_4 main_v53 ((fun x v => Host.reduceAdd x v reducesTo_S16x64x64x64x6_S16x64x6_d2_3 h_S_) : (⟨S16x64x64x64x6, .f32⟩ : BufTy).Contents (Elt F) → (⟨S_, .f32⟩ : BufTy).Contents (Elt F) → (⟨S16x64x6, .f32⟩ : BufTy).Contents (Elt F)) ]

/-- @main's operations 61 … 69 (its second window). -/
abbrev ops_part1 : List (HloOp τ sig (Elt F)) :=
  [ StableHlo.reshape main_cst_1 main_v54 rfl shapeCasts_S6_S1x1x6,
    StableHlo.nullary main_cst_5 (constant S_ .f32 0x3F800000#32),
    StableHlo.unary main_cst_5 main_v55 (broadcastInDim S1x1x6 ![] bcast_S_S1x1x6 : (⟨S_, .f32⟩ : BufTy).Contents (Elt F) → (⟨S1x1x6, .f32⟩ : BufTy).Contents (Elt F)),
    StableHlo.binary main_v55 main_v54 main_v56 (subf : (⟨S1x1x6, .f32⟩ : BufTy).Contents (Elt F) → (⟨S1x1x6, .f32⟩ : BufTy).Contents (Elt F) → (⟨S1x1x6, .f32⟩ : BufTy).Contents (Elt F)),
    StableHlo.nullary main_cst_6 (constant S_ .f32 0x40000000#32),
    StableHlo.unary main_cst_6 main_v57 (broadcastInDim S1x1x6 ![] bcast_S_S1x1x6 : (⟨S_, .f32⟩ : BufTy).Contents (Elt F) → (⟨S1x1x6, .f32⟩ : BufTy).Contents (Elt F)),
    StableHlo.binary main_v57 main_v56 main_v58 (Host.powf : (⟨S1x1x6, .f32⟩ : BufTy).Contents (Elt F) → (⟨S1x1x6, .f32⟩ : BufTy).Contents (Elt F) → (⟨S1x1x6, .f32⟩ : BufTy).Contents (Elt F)),
    StableHlo.unary main_v58 main_v59 (broadcastInDim S16x64x6 ![0, 1, 2] bcast_S1x1x6_S16x64x6_0_1_2 : (⟨S1x1x6, .f32⟩ : BufTy).Contents (Elt F) → (⟨S16x64x6, .f32⟩ : BufTy).Contents (Elt F)),
    StableHlo.binary main_v53 main_v59 main_v60 (mulf : (⟨S16x64x6, .f32⟩ : BufTy).Contents (Elt F) → (⟨S16x64x6, .f32⟩ : BufTy).Contents (Elt F) → (⟨S16x64x6, .f32⟩ : BufTy).Contents (Elt F)) ]

/-- @main's 69 operations, in order. -/
abbrev ops : List (HloOp τ sig (Elt F)) :=
  ops_part0 ++ ops_part1

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨nullary_bufs_sub .., nullary_bufs_sub .., nullary_bufs_sub .., unary_bufs_sub .., unary_bufs_sub .., unary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub .., binary_bufs_sub .., unary_bufs_sub .., binary_bufs_sub .., unary_bufs_sub .., unary_bufs_sub .., unary_bufs_sub .., unary_bufs_sub .., binary_bufs_sub .., unary_bufs_sub .., unary_bufs_sub .., binary_bufs_sub .., reshape_bufs_sub .., reshape_bufs_sub .., reshape_bufs_sub .., unary_bufs_sub .., unary_bufs_sub .., unary_bufs_sub .., unary_bufs_sub .., binary_bufs_sub .., nullary_bufs_sub .., unary_bufs_sub .., binary_bufs_sub .., unary_bufs_sub .., binary_bufs_sub .., unary_bufs_sub .., unary_bufs_sub .., unary_bufs_sub .., unary_bufs_sub .., binary_bufs_sub .., unary_bufs_sub .., binary_bufs_sub .., unary_bufs_sub .., unary_bufs_sub .., binary_bufs_sub .., nullary_bufs_sub .., binary_bufs_sub ..⟩
set_option maxRecDepth 8192 in
theorem ops_part1_sub : (ops_part1 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]

/-! ## The buffers after each window -/

/-- The buffer contents after two lines run one after the other are those of the second line from the first's. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The device's buffer contents after @main's first window. -/
def val1 (V0 : Valuation τ sig (Elt F)) : Valuation τ sig (Elt F) := after ops_part0 V0

theorem val1_main_arg0 (V0 : Valuation τ sig (Elt F)) : val1 V0 (no_index (Proc.devRef .tc main_arg0)) = V0 (Proc.devRef .tc main_arg0) := by
  unfold val1
  simp only [ops_part0]
  after_results_simp
theorem val1_main_arg1 (V0 : Valuation τ sig (Elt F)) : val1 V0 (no_index (Proc.devRef .tc main_arg1)) = V0 (Proc.devRef .tc main_arg1) := by
  unfold val1
  simp only [ops_part0]
  after_results_simp
theorem val1_main_arg2 (V0 : Valuation τ sig (Elt F)) : val1 V0 (no_index (Proc.devRef .tc main_arg2)) = V0 (Proc.devRef .tc main_arg2) := by
  unfold val1
  simp only [ops_part0]
  after_results_simp
/-- The table of exponents is still in its buffer after the first window. -/
theorem val1_main_cst_1 (V0 : Valuation τ sig (Elt F)) :
    val1 V0 (no_index (Proc.devRef .tc main_cst_1)) = fun i => FloatOps.ofBits .f32 (lit1 (S6.rowMajor i)) := by
  unfold val1
  simp only [ops_part0]
  after_results_simp
  rfl
set_option maxRecDepth 8192 in
set_option maxHeartbeats 2000000 in
/-- The first window ends with the sum over the neighbour pairs in its buffer. -/
theorem val1_main_v53 (V0 : Valuation τ sig (Elt F)) :
    val1 V0 (no_index (Proc.devRef .tc main_v53)) = sumT (V0 (Proc.devRef .tc main_arg0)) (V0 (Proc.devRef .tc main_arg1)) (V0 (Proc.devRef .tc main_arg2)) := by
  unfold val1
  simp only [ops_part0]
  after_results_simp
  rfl

/-- The device's buffer contents after @main's two windows. -/
def val2 (V0 : Valuation τ sig (Elt F)) : Valuation τ sig (Elt F) := after ops_part1 (val1 V0)

theorem val2_main_arg0 (V0 : Valuation τ sig (Elt F)) : val2 V0 (no_index (Proc.devRef .tc main_arg0)) = V0 (Proc.devRef .tc main_arg0) := by
  unfold val2
  simp only [ops_part1]
  after_results_simp
  exact val1_main_arg0 V0
theorem val2_main_arg1 (V0 : Valuation τ sig (Elt F)) : val2 V0 (no_index (Proc.devRef .tc main_arg1)) = V0 (Proc.devRef .tc main_arg1) := by
  unfold val2
  simp only [ops_part1]
  after_results_simp
  exact val1_main_arg1 V0
theorem val2_main_arg2 (V0 : Valuation τ sig (Elt F)) : val2 V0 (no_index (Proc.devRef .tc main_arg2)) = V0 (Proc.devRef .tc main_arg2) := by
  unfold val2
  simp only [ops_part1]
  after_results_simp
  exact val1_main_arg2 V0
set_option maxRecDepth 8192 in
/-- The second window ends with the reference's result in its buffer. -/
theorem val2_main_v60 (V0 : Valuation τ sig (Elt F)) :
    val2 V0 (no_index (Proc.devRef .tc main_v60)) = refTerm (V0 (Proc.devRef .tc main_arg0)) (V0 (Proc.devRef .tc main_arg1)) (V0 (Proc.devRef .tc main_arg2)) := by
  unfold val2
  simp only [ops_part1]
  after_results_simp
  simp only [val1_main_v53, val1_main_cst_1]
  rfl

theorem after_ops (V0 : Valuation τ sig (Elt F)) : after ops V0 = val2 V0 := by
  simp only [ops, after_app]
  rfl

set_option maxRecDepth 8192 in
/-- Every weakly fair execution of the reference's program ends with the result buffer at refTerm of the argument
    arrays, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60)
          = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v60).trans (by simp only [after_ops]; exact val2_main_v60 (launchContents m c)),
      (h c main_arg0).trans (by simp only [after_ops]; exact val2_main_arg0 (launchContents m c)),
      (h c main_arg1).trans (by simp only [after_ops]; exact val2_main_arg1 (launchContents m c)),
      (h c main_arg2).trans (by simp only [after_ops]; exact val2_main_arg2 (launchContents m c))⟩)
    (run_seq scopedRefs_eq scopedSems_eq defs main (fun _ => ops) main_eq (fun _ => ops_sub) m ρ)

end Cert.ReferenceIdeal.RefRun

end
-- ==== Proof.LibReduceAxes23.lean ====
/-
  A host float sum over the two middle axes of a rank-5 array.

  The sum's index set at the result index (a, b, e) is the set of rank-5 indices whose coordinates on the kept axes
  0, 1 and 4 are a, b and e; that set is the image of the pairs (c, d) of coordinates on the reduced axes 2 and 3 under
  (c, d) ↦ (a, b, c, d, e), a bijection, so the sum over it is the double sum over c and d.
-/
import Idealize.ShloMosaic.PureOps.Ideal
import Idealize.ShloMosaic.PureOps.Ideal.Laws
import Idealize.ShloMosaic.Lib.ValueIdx
import Mathlib.Algebra.BigOperators.Group.Finset.Sigma

noncomputable section

namespace Cert.LibReduce

open Idealize.ShloMosaic Idealize.ShloMosaic.ValueIdx

/-- Dropping axes 2 and 3 of a rank-5 index gives the rank-3 index (a, b, e) exactly when the index's coordinates on
    the kept axes 0, 1 and 4 are a, b and e: on result axes 0, 1, 2 the dropped index carries the source's coordinates
    on axes 0, 1, 4. -/
theorem drop_axes23_eq_iff {n0 n1 n2 n3 n4 : Nat}
    (h' : (⟨5, ![n0, n1, n2, n3, n4]⟩ : Shape).ReducesTo [2, 3] ⟨3, ![n0, n1, n4]⟩)
    (i : (⟨5, ![n0, n1, n2, n3, n4]⟩ : Shape).Idx) (a : Fin n0) (b : Fin n1) (e : Fin n4) :
    h'.drop i = ix3 a b e ↔ (i 0 = a ∧ i 1 = b ∧ i 4 = e) := by
  have e0 : (h'.drop i 0 : Nat) = i 0 := rfl
  have e1 : (h'.drop i 1 : Nat) = i 1 := rfl
  have e2 : (h'.drop i 2 : Nat) = i 4 := rfl
  constructor
  · intro h
    exact ⟨Fin.ext (e0.symm.trans (congrArg Fin.val (congrFun h 0))),
      Fin.ext (e1.symm.trans (congrArg Fin.val (congrFun h 1))),
      Fin.ext (e2.symm.trans (congrArg Fin.val (congrFun h 2)))⟩
  · rintro ⟨h0, h1, h4⟩
    funext k
    match k with
    | ⟨0, _⟩ => exact Fin.ext (e0.trans (congrArg Fin.val h0))
    | ⟨1, _⟩ => exact Fin.ext (e1.trans (congrArg Fin.val h1))
    | ⟨2, _⟩ => exact Fin.ext (e2.trans (congrArg Fin.val h4))

/-- At the ideal values, a host sum over axes 2 and 3 of an array of shape [n0, n1, n2, n3, n4], read at the index
    (a, b, e) of the result [n0, n1, n4], is the initial value plus the double sum over the two reduced axes of the
    array's entries at (a, b, c, d, e). -/
theorem hostReduceAdd_axes23 {n0 n1 n2 n3 n4 : Nat}
    (h' : (⟨5, ![n0, n1, n2, n3, n4]⟩ : Shape).ReducesTo [2, 3] ⟨3, ![n0, n1, n4]⟩)
    (x : (⟨5, ![n0, n1, n2, n3, n4]⟩ : Shape).Idx → EReal) (init : EReal) (a : Fin n0) (b : Fin n1) (e : Fin n4) :
    Ideal.hostReduceAdd h' x init (ix3 a b e) = init + ∑ c : Fin n2, ∑ d : Fin n3, x (ix5 a b c d e) := by
  unfold Ideal.hostReduceAdd
  congr 1
  -- the double sum is the sum over the pairs (c, d); re-index it along (c, d) ↦ (a, b, c, d, e), with inverse
  -- i ↦ (i 2, i 3) on the indices that drop to (a, b, e)
  rw [← Finset.sum_product']
  symm
  refine Finset.sum_bij' (fun p _ => ix5 a b p.1 p.2 e) (fun i _ => (i 2, i 3)) ?_ ?_ ?_ ?_ ?_
  · intro p _
    rw [Finset.mem_filter]
    exact ⟨Finset.mem_univ _, (drop_axes23_eq_iff h' _ a b e).2 ⟨rfl, rfl, rfl⟩⟩
  · intro i _
    exact Finset.mem_product.2 ⟨Finset.mem_univ _, Finset.mem_univ _⟩
  · intro p _
    rfl
  · intro i hi
    obtain ⟨h0, h1, h4⟩ := (drop_axes23_eq_iff h' i a b e).1 (Finset.mem_filter.1 hi).2
    show ix5 a b (i 2) (i 3) e = i
    rw [← h0, ← h1, ← h4]
    exact (eq_ix5 i).symm
  · intro p _
    rfl

/-- The same at the sizes 16, 64, 64, 64, 6: a sum over the two middle axes of a [16, 64, 64, 64, 6] array, read at
    (a, b, e), is the initial value plus the double sum over c, d : Fin 64 of the entries at (a, b, c, d, e). -/
theorem hostReduceAdd_axes23_16_64_64_64_6
    (h' : (⟨5, ![16, 64, 64, 64, 6]⟩ : Shape).ReducesTo [2, 3] ⟨3, ![16, 64, 6]⟩)
    (x : (⟨5, ![16, 64, 64, 64, 6]⟩ : Shape).Idx → EReal) (init : EReal) (a : Fin 16) (b : Fin 64) (e : Fin 6) :
    Ideal.hostReduceAdd h' x init (ix3 a b e) = init + ∑ c : Fin 64, ∑ d : Fin 64, x (ix5 a b c d e) :=
  hostReduceAdd_axes23 h' x init a b e

end Cert.LibReduce

end
-- ==== Proof.RefRead.lean ====
/-
  The reference's term read entry by entry: at batch b, row i, channel l it is the row formula outR.

  First each layout operation of the program is read at an index given by its coordinates (a broadcast reads its
  operand at the coordinates it keeps, 0 on a unit axis; a reshape of a six-entry table reads the table at the
  channel), then the contraction over the three coordinates and the sum over the two neighbour axes, then each
  stage of the reference's term, and last the term itself.
-/
import proofs.«112582_j68315749810414_1_alg».proof.Proof.RefRun
import proofs.«112582_j68315749810414_1_alg».proof.Proof.Spec
import proofs.«112582_j68315749810414_1_alg».proof.Proof.LibReduceAxes23
import Idealize.ShloMosaic.Lib.Pipeline.Value
import Idealize.ShloMosaic.Lib.ValueLayout
import Idealize.ShloMosaic.PureOps.Ideal.Laws

noncomputable section

namespace Cert.ReferenceIdeal.RefRead

open Cert.ReferenceIdeal Cert.ReferenceIdeal.Gen Idealize.ShloMosaic Idealize.ShloMosaic.ValueIdx Cert.Angular

/-! ## Each broadcast of the program read at an index built from coordinates -/

section Bcast
variable {α : Type}

/-- (b, i, ·, a) of the row copy of the coordinate array is atom i's coordinate a. -/
theorem bc_X_row (h : S16x64x3.BroadcastsInDim S16x64x1x3 (![0, 1, 3] : Fin 3 → Fin S16x64x1x3.rank))
    (X : S16x64x3.Idx → α) (b : Fin 16) (i : Fin 64) (z : Fin 1) (a : Fin 3) :
    broadcastInDim S16x64x1x3 ![0, 1, 3] h X (ix4 b i z a) = X (ix3 b i a) :=
  broadcastInDim_apply _ h X _ _ fun ax => by
    match ax with
    | ⟨0, _⟩ => rfl
    | ⟨1, _⟩ => rfl
    | ⟨2, _⟩ => rfl

/-- (b, ·, j, a) of the column copy of the coordinate array is atom j's coordinate a. -/
theorem bc_X_col (h : S16x64x3.BroadcastsInDim S16x1x64x3 (![0, 2, 3] : Fin 3 → Fin S16x1x64x3.rank))
    (X : S16x64x3.Idx → α) (b : Fin 16) (z : Fin 1) (j : Fin 64) (a : Fin 3) :
    broadcastInDim S16x1x64x3 ![0, 2, 3] h X (ix4 b z j a) = X (ix3 b j a) :=
  broadcastInDim_apply _ h X _ _ fun ax => by
    match ax with
    | ⟨0, _⟩ => rfl
    | ⟨1, _⟩ => rfl
    | ⟨2, _⟩ => rfl

/-- Stretching the unit axis 2 of a [16,64,1,3] array. -/
theorem bc_row_up3 (h : S16x64x1x3.BroadcastsInDim S16x64x64x3 (![0, 1, 2, 3] : Fin 4 → Fin S16x64x64x3.rank))
    (V : S16x64x1x3.Idx → α) (b : Fin 16) (i j : Fin 64) (a : Fin 3) :
    broadcastInDim S16x64x64x3 ![0, 1, 2, 3] h V (ix4 b i j a) = V (ix4 b i 0 a) :=
  broadcastInDim_apply _ h V _ _ fun ax => by
    match ax with
    | ⟨0, _⟩ => rfl
    | ⟨1, _⟩ => rfl
    | ⟨2, _⟩ => rfl
    | ⟨3, _⟩ => rfl

/-- Stretching the unit axis 1 of a [16,1,64,3] array. -/
theorem bc_col_up3 (h : S16x1x64x3.BroadcastsInDim S16x64x64x3 (![0, 1, 2, 3] : Fin 4 → Fin S16x64x64x3.rank))
    (V : S16x1x64x3.Idx → α) (b : Fin 16) (i j : Fin 64) (a : Fin 3) :
    broadcastInDim S16x64x64x3 ![0, 1, 2, 3] h V (ix4 b i j a) = V (ix4 b 0 j a) :=
  broadcastInDim_apply _ h V _ _ fun ax => by
    match ax with
    | ⟨0, _⟩ => rfl
    | ⟨1, _⟩ => rfl
    | ⟨2, _⟩ => rfl
    | ⟨3, _⟩ => rfl

/-- (b, i, j, ·) of a pair table with a trailing unit axis is its entry (b, i, j). -/
theorem bc_M_ij (h : S16x64x64.BroadcastsInDim S16x64x64x1 (![0, 1, 2] : Fin 3 → Fin S16x64x64x1.rank))
    (D : S16x64x64.Idx → α) (b : Fin 16) (i j : Fin 64) (z : Fin 1) :
    broadcastInDim S16x64x64x1 ![0, 1, 2] h D (ix4 b i j z) = D (ix3 b i j) :=
  broadcastInDim_apply _ h D _ _ fun ax => by
    match ax with
    | ⟨0, _⟩ => rfl
    | ⟨1, _⟩ => rfl
    | ⟨2, _⟩ => rfl

/-- (b, i, ·, k) of a pair table with a unit axis 2 is its entry (b, i, k). -/
theorem bc_M_ik (h : S16x64x64.BroadcastsInDim S16x64x1x64 (![0, 1, 3] : Fin 3 → Fin S16x64x1x64.rank))
    (D : S16x64x64.Idx → α) (b : Fin 16) (i : Fin 64) (z : Fin 1) (k : Fin 64) :
    broadcastInDim S16x64x1x64 ![0, 1, 3] h D (ix4 b i z k) = D (ix3 b i k) :=
  broadcastInDim_apply _ h D _ _ fun ax => by
    match ax with
    | ⟨0, _⟩ => rfl
    | ⟨1, _⟩ => rfl
    | ⟨2, _⟩ => rfl

/-- (b, ·, j, k) of a pair table with a unit axis 1 is its entry (b, j, k). -/
theorem bc_M_jk (h : S16x64x64.BroadcastsInDim S16x1x64x64 (![0, 2, 3] : Fin 3 → Fin S16x1x64x64.rank))
    (D : S16x64x64.Idx → α) (b : Fin 16) (z : Fin 1) (j k : Fin 64) :
    broadcastInDim S16x1x64x64 ![0, 2, 3] h D (ix4 b z j k) = D (ix3 b j k) :=
  broadcastInDim_apply _ h D _ _ fun ax => by
    match ax with
    | ⟨0, _⟩ => rfl
    | ⟨1, _⟩ => rfl
    | ⟨2, _⟩ => rfl

/-- Stretching the trailing unit axis of a [16,64,64,1] array. -/
theorem bc_ij_up (h : S16x64x64x1.BroadcastsInDim S16x64x64x64 (![0, 1, 2, 3] : Fin 4 → Fin S16x64x64x64.rank))
    (V : S16x64x64x1.Idx → α) (b : Fin 16) (i j k : Fin 64) :
    broadcastInDim S16x64x64x64 ![0, 1, 2, 3] h V (ix4 b i j k) = V (ix4 b i j 0) :=
  broadcastInDim_apply _ h V _ _ fun ax => by
    match ax with
    | ⟨0, _⟩ => rfl
    | ⟨1, _⟩ => rfl
    | ⟨2, _⟩ => rfl
    | ⟨3, _⟩ => rfl

/-- Stretching the unit axis 2 of a [16,64,1,64] array. -/
theorem bc_ik_up (h : S16x64x1x64.BroadcastsInDim S16x64x64x64 (![0, 1, 2, 3] : Fin 4 → Fin S16x64x64x64.rank))
    (V : S16x64x1x64.Idx → α) (b : Fin 16) (i j k : Fin 64) :
    broadcastInDim S16x64x64x64 ![0, 1, 2, 3] h V (ix4 b i j k) = V (ix4 b i 0 k) :=
  broadcastInDim_apply _ h V _ _ fun ax => by
    match ax with
    | ⟨0, _⟩ => rfl
    | ⟨1, _⟩ => rfl
    | ⟨2, _⟩ => rfl
    | ⟨3, _⟩ => rfl

/-- Stretching the unit axis 1 of a [16,1,64,64] array. -/
theorem bc_jk_up (h : S16x1x64x64.BroadcastsInDim S16x64x64x64 (![0, 1, 2, 3] : Fin 4 → Fin S16x64x64x64.rank))
    (V : S16x1x64x64.Idx → α) (b : Fin 16) (i j k : Fin 64) :
    broadcastInDim S16x64x64x64 ![0, 1, 2, 3] h V (ix4 b i j k) = V (ix4 b 0 j k) :=
  broadcastInDim_apply _ h V _ _ fun ax => by
    match ax with
    | ⟨0, _⟩ => rfl
    | ⟨1, _⟩ => rfl
    | ⟨2, _⟩ => rfl
    | ⟨3, _⟩ => rfl

/-- A scalar spread over [16,64,64,64]. -/
theorem bc_sc4 (h : S_.BroadcastsInDim S16x64x64x64 (![] : Fin 0 → Fin S16x64x64x64.rank))
    (V : S_.Idx → α) (y : S16x64x64x64.Idx) :
    broadcastInDim S16x64x64x64 ![] h V y = V ix0 :=
  broadcastInDim_apply _ h V _ _ fun ax => ax.elim0

/-- A scalar spread over [16,64,64,64,6]. -/
theorem bc_sc5 (h : S_.BroadcastsInDim S16x64x64x64x6 (![] : Fin 0 → Fin S16x64x64x64x6.rank))
    (V : S_.Idx → α) (y : S16x64x64x64x6.Idx) :
    broadcastInDim S16x64x64x64x6 ![] h V y = V ix0 :=
  broadcastInDim_apply _ h V _ _ fun ax => ax.elim0

/-- A scalar spread over [1,1,6]. -/
theorem bc_sc3 (h : S_.BroadcastsInDim S1x1x6 (![] : Fin 0 → Fin S1x1x6.rank))
    (V : S_.Idx → α) (y : S1x1x6.Idx) :
    broadcastInDim S1x1x6 ![] h V y = V ix0 :=
  broadcastInDim_apply _ h V _ _ fun ax => ax.elim0

/-- (b, i, j, k, ·) of a [16,64,64,64] array with a trailing unit axis is its entry (b, i, j, k). -/
theorem bc_4_unit (h : S16x64x64x64.BroadcastsInDim S16x64x64x64x1 (![0, 1, 2, 3] : Fin 4 → Fin S16x64x64x64x1.rank))
    (V : S16x64x64x64.Idx → α) (b : Fin 16) (i j k : Fin 64) (z : Fin 1) :
    broadcastInDim S16x64x64x64x1 ![0, 1, 2, 3] h V (ix5 b i j k z) = V (ix4 b i j k) :=
  broadcastInDim_apply _ h V _ _ fun ax => by
    match ax with
    | ⟨0, _⟩ => rfl
    | ⟨1, _⟩ => rfl
    | ⟨2, _⟩ => rfl
    | ⟨3, _⟩ => rfl

/-- Stretching the trailing unit axis of a [16,64,64,64,1] array to the six channels. -/
theorem bc_unit_up6 (h : S16x64x64x64x1.BroadcastsInDim S16x64x64x64x6 (![0, 1, 2, 3, 4] : Fin 5 → Fin S16x64x64x64x6.rank))
    (V : S16x64x64x64x1.Idx → α) (b : Fin 16) (i j k : Fin 64) (l : Fin 6) :
    broadcastInDim S16x64x64x64x6 ![0, 1, 2, 3, 4] h V (ix5 b i j k l) = V (ix5 b i j k 0) :=
  broadcastInDim_apply _ h V _ _ fun ax => by
    match ax with
    | ⟨0, _⟩ => rfl
    | ⟨1, _⟩ => rfl
    | ⟨2, _⟩ => rfl
    | ⟨3, _⟩ => rfl
    | ⟨4, _⟩ => rfl

/-- A per-channel table [1,1,1,1,6] spread over [16,64,64,64,6] reads the table at the channel. -/
theorem bc_tab_up5 (h : S1x1x1x1x6.BroadcastsInDim S16x64x64x64x6 (![0, 1, 2, 3, 4] : Fin 5 → Fin S16x64x64x64x6.rank))
    (T : S1x1x1x1x6.Idx → α) (b : Fin 16) (i j k : Fin 64) (l : Fin 6) :
    broadcastInDim S16x64x64x64x6 ![0, 1, 2, 3, 4] h T (ix5 b i j k l) = T (ix5 0 0 0 0 l) :=
  broadcastInDim_apply _ h T _ _ fun ax => by
    match ax with
    | ⟨0, _⟩ => rfl
    | ⟨1, _⟩ => rfl
    | ⟨2, _⟩ => rfl
    | ⟨3, _⟩ => rfl
    | ⟨4, _⟩ => rfl

/-- A per-channel table [1,1,6] spread over [16,64,6] reads the table at the channel. -/
theorem bc_tab_up3 (h : S1x1x6.BroadcastsInDim S16x64x6 (![0, 1, 2] : Fin 3 → Fin S16x64x6.rank))
    (T : S1x1x6.Idx → α) (b : Fin 16) (i : Fin 64) (l : Fin 6) :
    broadcastInDim S16x64x6 ![0, 1, 2] h T (ix3 b i l) = T (ix3 0 0 l) :=
  broadcastInDim_apply _ h T _ _ fun ax => by
    match ax with
    | ⟨0, _⟩ => rfl
    | ⟨1, _⟩ => rfl
    | ⟨2, _⟩ => rfl

/-- The six-entry table viewed as [1,1,1,1,6]. -/
theorem sc_tab5 (h : S6.ShapeCasts S1x1x1x1x6) (T : S6.Idx → α) (l : Fin 6) :
    shapeCast S1x1x1x1x6 T h (ix5 0 0 0 0 l) = T (ix1 l) :=
  shapeCast_apply T h _ _ (by
    rw [Shape.rowMajor_val_one, Shape.rowMajor_val_five]
    show l.val = ((((0 * 1 + 0) * 1 + 0) * 1 + 0) * 6 + l.val)
    omega)

/-- The six-entry table viewed as [1,1,6]. -/
theorem sc_tab3 (h : S6.ShapeCasts S1x1x6) (T : S6.Idx → α) (l : Fin 6) :
    shapeCast S1x1x6 T h (ix3 0 0 l) = T (ix1 l) :=
  shapeCast_apply T h _ _ (by
    rw [Shape.rowMajor_val_one, Shape.rowMajor_val_three]
    show l.val = ((0 * 1 + 0) * 6 + l.val)
    omega)

end Bcast

/-! ## The two literal tables at a channel -/

theorem lit0_at (l : Fin 6) :
    (FloatOps.ofBits .f32 (lit0 (S6.rowMajor (ix1 l))) : Ideal .f32) = Ideal.ofBits .f32 (lamW l) := by
  have hv : S6.rowMajor (ix1 l) = l := Fin.ext (Shape.rowMajor_val_one _)
  rw [hv]
  match l with
  | ⟨0, _⟩ => rfl
  | ⟨1, _⟩ => rfl
  | ⟨2, _⟩ => rfl
  | ⟨3, _⟩ => rfl
  | ⟨4, _⟩ => rfl
  | ⟨5, _⟩ => rfl

theorem lit1_at (l : Fin 6) :
    (FloatOps.ofBits .f32 (lit1 (S6.rowMajor (ix1 l))) : Ideal .f32) = Ideal.ofBits .f32 (zetW l) := by
  have hv : S6.rowMajor (ix1 l) = l := Fin.ext (Shape.rowMajor_val_one _)
  rw [hv]
  match l with
  | ⟨0, _⟩ => rfl
  | ⟨1, _⟩ => rfl
  | ⟨2, _⟩ => rfl
  | ⟨3, _⟩ => rfl
  | ⟨4, _⟩ => rfl
  | ⟨5, _⟩ => rfl

/-! ## The pointwise host operations at an index -/

section Pointwise
variable {s : Shape}

theorem hcos_apply (x : FVec Ideal s .f32) (y : s.Idx) : Host.cos x y = Ideal.cos (x y) := rfl
theorem hexp_apply (x : FVec Ideal s .f32) (y : s.Idx) : Host.exp x y = Ideal.exp (x y) := rfl
theorem hpow_apply (x e : FVec Ideal s .f32) (y : s.Idx) : Host.powf x e y = Ideal.pow (x y) (e y) := rfl
theorem hneg_apply (x : FVec Ideal s .f32) (y : s.Idx) : Host.negf x y = -(x y) := rfl
theorem hdiv_apply (x d : FVec Ideal s .f32) (y : s.Idx) : Host.divf x d y = Ideal.div (x y) (d y) := rfl

end Pointwise

/-! ## The contraction over the three coordinates -/

/-- The batched product contracting the last axis of two [16,64,64,3] arrays, at (b, i, j, k): the sum over the
    coordinate a of the first at (b, i, j, a) times the second at (b, i, k, a). -/
theorem dot_at [Facts₀] (V W : FVec Ideal S16x64x64x3 .f32) (b : Fin 16) (i j k : Fin 64) :
    Host.dotGeneral dot_S16x64x64x3_S16x64x64x3_S16x64x64x64_3_3_2_2_01_01 none V W (ix4 b i j k)
      = ∑ a : Fin 3, V (ix4 b i j a) * W (ix4 b i k a) := by
  show FloatOps.dotGeneral _ none _ V W (ix4 b i j k) = _
  rw [Ideal.dotGeneral_apply,
    ← Equiv.sum_comp (contrEquiv1 dot_S16x64x64x3_S16x64x64x3_S16x64x64x64_3_3_2_2_01_01 3 rfl rfl).symm]
  refine Finset.sum_congr rfl fun a _ => ?_
  have c := contrEquiv1_symm_val dot_S16x64x64x3_S16x64x64x3_S16x64x64x64_3_3_2_2_01_01 3 rfl rfl a
  have l : dot_S16x64x64x3_S16x64x64x3_S16x64x64x64_3_3_2_2_01_01.lhsIdx (ix4 b i j k)
      ((contrEquiv1 _ 3 rfl rfl).symm a) = ix4 b i j a := by
    funext ax; apply Fin.ext
    match ax with
    | ⟨0, _⟩ => simp [DotDims.lhsIdx, dot_S16x64x64x3_S16x64x64x3_S16x64x64x64_3_3_2_2_01_01]; rfl
    | ⟨1, _⟩ => simp [DotDims.lhsIdx, dot_S16x64x64x3_S16x64x64x3_S16x64x64x64_3_3_2_2_01_01]; rfl
    | ⟨2, _⟩ => simp [DotDims.lhsIdx, dot_S16x64x64x3_S16x64x64x3_S16x64x64x64_3_3_2_2_01_01]; rfl
    | ⟨3, _⟩ => simp [DotDims.lhsIdx, dot_S16x64x64x3_S16x64x64x3_S16x64x64x64_3_3_2_2_01_01]; exact c
  have r : dot_S16x64x64x3_S16x64x64x3_S16x64x64x64_3_3_2_2_01_01.rhsIdx (ix4 b i j k)
      ((contrEquiv1 _ 3 rfl rfl).symm a) = ix4 b i k a := by
    funext ax; apply Fin.ext
    match ax with
    | ⟨0, _⟩ => simp [DotDims.rhsIdx, dot_S16x64x64x3_S16x64x64x3_S16x64x64x64_3_3_2_2_01_01]; rfl
    | ⟨1, _⟩ => simp [DotDims.rhsIdx, dot_S16x64x64x3_S16x64x64x3_S16x64x64x64_3_3_2_2_01_01]; rfl
    | ⟨2, _⟩ => simp [DotDims.rhsIdx, dot_S16x64x64x3_S16x64x64x3_S16x64x64x64_3_3_2_2_01_01]; rfl
    | ⟨3, _⟩ => simp [DotDims.rhsIdx, dot_S16x64x64x3_S16x64x64x3_S16x64x64x64_3_3_2_2_01_01]; exact c
  rw [l, r]

/-! ## The sum over the two neighbour axes -/

/-- The host sum over axes 2 and 3 of a [16,64,64,64,6] array from a scalar start, at (b, i, l). -/
theorem red_at (h' : S16x64x64x64x6.ReducesTo [2, 3] S16x64x6) (hu : 0 < S_.numel)
    (x : FVec Ideal S16x64x64x64x6 .f32) (v : FVec Ideal S_ .f32) (b : Fin 16) (i : Fin 64) (l : Fin 6) :
    Host.reduceAdd x v h' hu (ix3 b i l) = v ix0 + ∑ j : Fin 64, ∑ k : Fin 64, x (ix5 b i j k l) := by
  show Ideal.hostReduceAdd h' x (v (Shape.Idx.first hu)) (ix3 b i l) = _
  rw [eq_ix0 (Shape.Idx.first hu)]
  exact Cert.LibReduce.hostReduceAdd_axes23 h' x (v ix0) b i l

/-! ## The reference's stages read at an index -/

section Stages
variable (a0 a1 : FVec Ideal S16x64x64 .f32) (a2 : FVec Ideal S16x64x3 .f32)
variable (b : Fin 16) (i j k : Fin 64) (l : Fin 6)

/-- The displacement array at (b, i, j, a): atom i's coordinate a less atom j's. -/
theorem disp_at (a : Fin 3) : Cert.ReferenceIdeal.RefRun.disp (F := Ideal) a2 (ix4 b i j a) = a2 (ix3 b i a) - a2 (ix3 b j a) := by
  unfold Cert.ReferenceIdeal.RefRun.disp
  simp only [subf_apply]
  rw [bc_row_up3, bc_col_up3, bc_X_row, bc_X_col]

/-- The contraction of two displacements is the dot product num. -/
theorem dotT_at : Cert.ReferenceIdeal.RefRun.dotT (F := Ideal) a2 (ix4 b i j k) = num (rowX a2 b) i j k := by
  unfold Cert.ReferenceIdeal.RefRun.dotT
  rw [dot_at, Fin.sum_univ_three, disp_at, disp_at, disp_at, disp_at, disp_at, disp_at]
  rfl

theorem dIJ_at (z : Fin 1) : Cert.ReferenceIdeal.RefRun.dIJ (F := Ideal) a1 (ix4 b i j z) = a1 (ix3 b i j) := by
  unfold Cert.ReferenceIdeal.RefRun.dIJ; exact bc_M_ij _ a1 b i j z
theorem dIK_at (z : Fin 1) : Cert.ReferenceIdeal.RefRun.dIK (F := Ideal) a1 (ix4 b i z k) = a1 (ix3 b i k) := by
  unfold Cert.ReferenceIdeal.RefRun.dIK; exact bc_M_ik _ a1 b i z k
theorem dJK_at (z : Fin 1) : Cert.ReferenceIdeal.RefRun.dJK (F := Ideal) a1 (ix4 b z j k) = a1 (ix3 b j k) := by
  unfold Cert.ReferenceIdeal.RefRun.dJK; exact bc_M_jk _ a1 b z j k

/-- The denominator array is den. -/
theorem denT_at : Cert.ReferenceIdeal.RefRun.denT (F := Ideal) a1 (ix4 b i j k) = den (rowM a1 b) i j k := by
  unfold Cert.ReferenceIdeal.RefRun.denT
  simp only [addf_apply, mulf_apply]
  rw [bc_ij_up, bc_ik_up, bc_sc4, dIJ_at, dIK_at, constant_apply]
  rfl

/-- The quotient array is num / den. -/
theorem thetaT_at :
    Cert.ReferenceIdeal.RefRun.thetaT (F := Ideal) a1 a2 (ix4 b i j k) = Ideal.div (num (rowX a2 b) i j k) (den (rowM a1 b) i j k) := by
  unfold Cert.ReferenceIdeal.RefRun.thetaT
  rw [hdiv_apply, dotT_at, denT_at]

/-- The sum of the three squared distances is ssq. -/
theorem ssqT_at : Cert.ReferenceIdeal.RefRun.ssqT (F := Ideal) a1 (ix4 b i j k) = ssq (rowM a1 b) i j k := by
  unfold Cert.ReferenceIdeal.RefRun.ssqT
  simp only [addf_apply]
  rw [bc_ij_up, bc_ik_up, bc_jk_up, mulf_apply, mulf_apply, mulf_apply, dIJ_at, dIK_at, dJK_at]
  rfl

/-- The product of the three cutoffs is fpr. -/
theorem fprT_at : Cert.ReferenceIdeal.RefRun.fprT (F := Ideal) a0 (ix4 b i j k) = fpr (rowM a0 b) i j k := by
  unfold Cert.ReferenceIdeal.RefRun.fprT
  simp only [mulf_apply]
  rw [bc_ij_up, bc_ik_up, bc_jk_up, bc_M_ij, bc_M_ik, bc_M_jk]
  rfl

/-- The cosine spread over the channels is cosT, whatever the channel. -/
theorem cosT5_at : Cert.ReferenceIdeal.RefRun.cosT5 (F := Ideal) a1 a2 (ix5 b i j k l) = cosT (rowX a2 b) (rowM a1 b) i j k := by
  unfold Cert.ReferenceIdeal.RefRun.cosT5
  dsimp only
  rw [bc_unit_up6, bc_4_unit, hcos_apply, thetaT_at]
  rfl

/-- One plus the channel's sign times the cosine is base. -/
theorem baseT_at :
    Cert.ReferenceIdeal.RefRun.baseT (F := Ideal) a1 a2 (ix5 b i j k l) = base (lamW l) (rowX a2 b) (rowM a1 b) i j k := by
  unfold Cert.ReferenceIdeal.RefRun.baseT
  simp only [addf_apply, mulf_apply]
  rw [bc_sc5, constant_apply, bc_tab_up5, sc_tab5, lit0_at, cosT5_at]
  rfl

/-- The power array: base to the channel's exponent. -/
theorem powT_at :
    Cert.ReferenceIdeal.RefRun.powT (F := Ideal) a1 a2 (ix5 b i j k l)
      = Ideal.pow (base (lamW l) (rowX a2 b) (rowM a1 b) i j k) (Ideal.ofBits .f32 (zetW l)) := by
  unfold Cert.ReferenceIdeal.RefRun.powT
  simp only [hpow_apply]
  rw [bc_tab_up5, sc_tab5, lit1_at, baseT_at]

/-- The exponential array: e to the negated word 4.0 times ssq. -/
theorem expT_at :
    Cert.ReferenceIdeal.RefRun.expT (F := Ideal) a1 (ix5 b i j k l)
      = Ideal.exp (-(Ideal.ofBits .f32 0x40800000#32) * ssq (rowM a1 b) i j k) := by
  unfold Cert.ReferenceIdeal.RefRun.expT
  simp only [hexp_apply, mulf_apply]
  rw [bc_tab_up5, hneg_apply, sc_tab5, constant_apply, bc_unit_up6, bc_4_unit, ssqT_at]

/-- The summand array. -/
theorem prodT_at :
    Cert.ReferenceIdeal.RefRun.prodT (F := Ideal) a0 a1 a2 (ix5 b i j k l)
      = (Ideal.pow (base (lamW l) (rowX a2 b) (rowM a1 b) i j k) (Ideal.ofBits .f32 (zetW l))
          * Ideal.exp (-(Ideal.ofBits .f32 0x40800000#32) * ssq (rowM a1 b) i j k)) * fpr (rowM a0 b) i j k := by
  unfold Cert.ReferenceIdeal.RefRun.prodT
  simp only [mulf_apply]
  rw [bc_unit_up6, bc_4_unit, powT_at, expT_at, fprT_at]

/-- The summed array: the zero word plus the double sum of the summands. -/
theorem sumT_at :
    Cert.ReferenceIdeal.RefRun.sumT (F := Ideal) a0 a1 a2 (ix3 b i l)
      = Ideal.ofBits .f32 0x00000000#32 + ∑ j : Fin 64, ∑ k : Fin 64,
          (Ideal.pow (base (lamW l) (rowX a2 b) (rowM a1 b) i j k) (Ideal.ofBits .f32 (zetW l))
            * Ideal.exp (-(Ideal.ofBits .f32 0x40800000#32) * ssq (rowM a1 b) i j k)) * fpr (rowM a0 b) i j k := by
  unfold Cert.ReferenceIdeal.RefRun.sumT
  dsimp only
  rw [red_at, constant_apply]
  refine congrArg (Ideal.ofBits .f32 0x00000000#32 + ·) ?_
  exact Finset.sum_congr rfl fun j _ => Finset.sum_congr rfl fun k _ => prodT_at a0 a1 a2 b i j k l

/-- The scale array: the word 2.0 to the power one less the channel's exponent. -/
theorem sclT_at :
    Cert.ReferenceIdeal.RefRun.sclT (F := Ideal) (ix3 b i l)
      = Ideal.pow (Ideal.ofBits .f32 0x40000000#32) (oneW - Ideal.ofBits .f32 (zetW l)) := by
  unfold Cert.ReferenceIdeal.RefRun.sclT
  dsimp only
  rw [bc_tab_up3, hpow_apply, subf_apply, bc_sc3, bc_sc3, constant_apply, constant_apply, sc_tab3, lit1_at]

end Stages

/-- The reference's term at the ideal values is GR of the arguments. -/
theorem refTerm_eq (a0 a1 : FVec Ideal S16x64x64 .f32) (a2 : FVec Ideal S16x64x3 .f32) :
    Cert.ReferenceIdeal.RefRun.refTerm (F := Ideal) a0 a1 a2 = GR a0 a1 a2 := by
  funext y
  obtain ⟨b, i, l, rfl⟩ : ∃ (b : Fin 16) (i : Fin 64) (l : Fin 6), y = ix3 b i l := ⟨y 0, y 1, y 2, eq_ix3 y⟩
  rw [GR_ix3]
  unfold Cert.ReferenceIdeal.RefRun.refTerm outR
  rw [mulf_apply, sumT_at, sclT_at]

end Cert.ReferenceIdeal.RefRead

end
-- ==== Proof.lean ====
/-
  The angular symmetry function of a molecular neighbourhood, computed per batch element by a kernel and by a
  whole-array reference:  out(b,i,l) = 2^(1−ζ_l) · Σ_j Σ_k (1 + λ_l · cos θ(b,i,j,k))^ζ_l · e^(−4·ssq(b,i,j,k)) · fpr(b,i,j,k),
  θ = (r_ij · r_ik) / (d_ij · d_ik + ε), with λ = (1,1,1,−1,−1,−1) and ζ = (2,4,8,2,4,8).

  The kernel raises to the power ζ_l by repeated squaring, multiplies by the folded scales 1/2, 1/8, 1/128 and sums
  over k, then over j; the reference uses the real power function, computes the scale as 2^(1−ζ_l), and sums over
  all (j,k) at once.  Over the extended reals these agree wherever every coordinate and distance is a real number
  and no denominator d_ij·d_ik + ε vanishes — there the quotient is real, its cosine lies in [−1,1], the base 1 ± cos
  is a real number, and a real power with exponent 2, 4, 8 is the repeated square (Proof/SpecLaw.lean).  At a
  vanishing denominator the reference divides by zero and takes the cosine of an infinity, so the precondition
  keeps the inputs away from it (Proof/PreFacts.lean reads that off the precondition).

  Proof/Spec.lean states the function in both spellings; Proof/KerBlock.lean reads one grid point's output block
  as the row formula; Proof/KerArray.lean lays the sixteen blocks out as the result array; Proof/RefRun.lean runs the
  reference's host operations to one pure term and Proof/RefRead.lean reads that term entry by entry
  (Proof/LibReduceAxes23.lean: a host sum over two middle axes as a double sum).  The two frames of the kernel
  are the generated ones; the reference's frame is its run with the result dropped; the idealization rewrote
  nothing, so there is nothing to preserve.
-/
import proofs.«112582_j68315749810414_1_alg».proof.Defs
import proofs.«112582_j68315749810414_1_alg».proof.Proof.Gen.Kernel
import proofs.«112582_j68315749810414_1_alg».proof.Proof.Gen.Kernel.Skeleton
import proofs.«112582_j68315749810414_1_alg».proof.Proof.Gen.Kernel.Launch
import proofs.«112582_j68315749810414_1_alg».proof.Proof.Gen.Kernel.Points
import proofs.«112582_j68315749810414_1_alg».proof.Proof.Gen.Kernel.Frame
import proofs.«112582_j68315749810414_1_alg».proof.Proof.Gen.KernelIdeal
import proofs.«112582_j68315749810414_1_alg».proof.Proof.Gen.KernelIdeal.Skeleton
import proofs.«112582_j68315749810414_1_alg».proof.Proof.Gen.KernelIdeal.Launch
import proofs.«112582_j68315749810414_1_alg».proof.Proof.Gen.KernelIdeal.Points
import proofs.«112582_j68315749810414_1_alg».proof.Proof.Gen.KernelIdeal.Frame
import proofs.«112582_j68315749810414_1_alg».proof.Proof.Gen.KernelIdeal.Value
import proofs.«112582_j68315749810414_1_alg».proof.Proof.Gen.ReferenceIdeal
import proofs.«112582_j68315749810414_1_alg».proof.Proof.Gen.Pre_finite_inputs
import proofs.«112582_j68315749810414_1_alg».proof.Proof.SpecLaw
import proofs.«112582_j68315749810414_1_alg».proof.Proof.PreFacts
import proofs.«112582_j68315749810414_1_alg».proof.Proof.KerArray
import proofs.«112582_j68315749810414_1_alg».proof.Proof.RefRun
import proofs.«112582_j68315749810414_1_alg».proof.Proof.RefRead
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both programs end with the same result array: the kernel's is the
    repeated-squaring spelling of the arguments, the reference's the real-power spelling, and under the precondition —
    real coordinates and distances, no vanishing denominator — the two spellings are one function. -/
theorem algebraic : Cert.algebraic_KernelIdeal_ReferenceIdeal := by
  intro m ρ m' ρ' hpre hagree
  refine ⟨_, Cert.KernelIdeal.KerArray.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRead.refTerm_eq, (hagree c).1, (hagree c).2.1, (hagree c).2.2]
  obtain ⟨hD, hX, hden⟩ := Cert.Angular.PreFacts.of_pre _ _ _ (hpre c)
  exact Cert.Angular.Law.GR_eq_GK _ _ _ hX hD hden

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
